-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S300000x256 : Shape := ⟨2, ![300000, 256]⟩
abbrev S2x300000 : Shape := ⟨2, ![2, 300000]⟩
abbrev S256x256 : Shape := ⟨2, ![256, 256]⟩
abbrev S256 : Shape := ⟨1, ![256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S300000x256 : S_.BroadcastsInDim S300000x256 (![] : Fin 0 → Fin S300000x256.rank)
  reducesTo_S300000x256_S_d0_1 : S300000x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S2x300000 : S_.BroadcastsInDim S2x300000 (![] : Fin 0 → Fin S2x300000.rank)
  reducesTo_S2x300000_S_d0_1 : S2x300000.ReducesTo [0, 1] S_

variable [Facts]

def fn_part2 {F : FTy → Type} [FloatOps F] (main_arg2 : IVec S2x300000 32) (main_v32 : IVec S_ 1) (main_c_12 : IVec S_ 32) : IVec S_ 1 :=
  let main_v33 : IVec S2x300000 32 := broadcastInDim S2x300000 ![] bcast_S_S2x300000 main_c_12
  let main_v34 : IVec S2x300000 1 := cmpi .slt main_arg2 main_v33
  let main_c_13 : IVec S_ 1 := constantI S_ 1 1#1
  let main_v35 : IVec S_ 1 := (fun x v => Host.reduce IntOp.andi x v reducesTo_S2x300000_S_d0_1 h_S_) main_v34 main_c_13
  let main_v36 : IVec S_ 1 := andi main_v32 main_v35
  main_v36

def fn_part1 {F : FTy → Type} [FloatOps F] (main_arg2 : IVec S2x300000 32) (main_arg5 : FVec F S256x256 .f32) (main_arg6 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_c_10 : IVec S_ 32 := constantI S_ 32 4294957296#32
  let main_v29 : IVec S2x300000 32 := broadcastInDim S2x300000 ![] bcast_S_S2x300000 main_c_10
  let main_v30 : IVec S2x300000 1 := cmpi .sge main_arg2 main_v29
  let main_c_11 : IVec S_ 1 := constantI S_ 1 1#1
  let main_v31 : IVec S_ 1 := (fun x v => Host.reduce IntOp.andi x v reducesTo_S2x300000_S_d0_1 h_S_) main_v30 main_c_11
  let main_v32 : IVec S_ 1 := andi main_v28 main_v31
  let main_c_12 : IVec S_ 32 := constantI S_ 32 10000#32
  fn_part2 (F := F) main_arg2 main_v32 main_c_12

def fn {F : FTy → Type} [FloatOps F] (main_arg0 : FVec F S10000x256 .f32) (main_arg1 : FVec F S300000x256 .f32) (main_arg2 : IVec S2x300000 32) (main_arg3 : FVec F S256x256 .f32) (main_arg4 : FVec F S256 .f32) (main_arg5 : FVec F S256x256 .f32) (main_arg6 : FVec F S256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S300000x256 .f32 := Host.absf main_arg1
  let main_cst_0 : FVec F S_ .f32 := constant S_ .f32 0x7F800000#32
  let main_v5 : FVec F S300000x256 .f32 := broadcastInDim S300000x256 ![] bcast_S_S300000x256 main_cst_0
  let main_v6 : IVec S300000x256 1 := cmpf .olt main_v4 main_v5
  let main_c_1 : IVec S_ 1 := constantI S_ 1 1#1
  let main_v7 : IVec S_ 1 := (fun x v => Host.reduce IntOp.andi x v reducesTo_S300000x256_S_d0_1 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg2 main_arg5 main_arg6 main_v13 main_v16
-- ==== Kernel.lean ====
abbrev S10000x256 : Shape := ⟨2, ![10000, 256]⟩
abbrev S300000x256 : Shape := ⟨2, ![300000, 256]⟩
abbrev S2x300000 : Shape := ⟨2, ![2, 300000]⟩
abbrev S256x256 : Shape := ⟨2, ![256, 256]⟩
abbrev S256 : Shape := ⟨1, ![256]⟩
abbrev S1x256 : Shape := ⟨2, ![1, 256]⟩
abbrev S2000x256 : Shape := ⟨2, ![2000, 256]⟩
abbrev S1x300000 : Shape := ⟨2, ![1, 300000]⟩
abbrev S300000 : Shape := ⟨1, ![300000]⟩
abbrev S_ : Shape := ⟨0, ![]⟩
abbrev S300000x1 : Shape := ⟨2, ![300000, 1]⟩
abbrev S1 : Shape := ⟨1, ![1]⟩
abbrev S1x1 : Shape := ⟨2, ![1, 1]⟩
abbrev S6000x256 : Shape := ⟨2, ![6000, 256]⟩

abbrev nBuf : Space → Nat
  | .hbm => 64
  | .vmem => 14
  | .smem => 0
  | _ => 0

abbrev bufTy : (tb : Table) → Fin (tcTables nBuf tb) → BufTy
  | .hbm, ⟨0, _⟩ => ⟨S10000x256, .f32⟩
  | .hbm, ⟨1, _⟩ => ⟨S300000x256, .f32⟩
  | .hbm, ⟨2, _⟩ => ⟨S2x300000, .i32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256x256, .f32⟩
  | .hbm, ⟨9, _⟩ => ⟨S1x256, .f32⟩
  | .hbm, ⟨10, _⟩ => ⟨S10000x256, .f32⟩
  | .hbm, ⟨11, _⟩ => ⟨S1x300000, .i32⟩
  | .hbm, ⟨12, _⟩ => ⟨S300000, .i32⟩
  | .hbm, ⟨13, _⟩ => ⟨S1x300000, .i32⟩
  | .hbm, ⟨14, _⟩ => ⟨S300000, .i32⟩
  | .hbm, ⟨15, _⟩ => ⟨S_, .i32⟩
  | .hbm, ⟨16, _⟩ => ⟨S300000, .i32⟩
  | .hbm, ⟨17, _⟩ => ⟨S300000, .i1⟩
  | .hbm, ⟨18, _⟩ => ⟨S_, .i32⟩
  | .hbm, ⟨19, _⟩ => ⟨S300000, .i32⟩
  | .hbm, ⟨20, _⟩ => ⟨S300000, .i32⟩
  | .hbm, ⟨21, _⟩ => ⟨S300000, .i32⟩
  | .hbm, ⟨22, _⟩ => ⟨S300000x1, .i32⟩
  | .hbm, ⟨23, _⟩ => ⟨S1, .i32⟩
  | .hbm, ⟨24, _⟩ => ⟨S_, .i32⟩
  | .hbm, ⟨25, _⟩ => ⟨S300000x1, .i32⟩
  | .hbm, ⟨26, _⟩ => ⟨S300000x1, .i1⟩
  | .hbm, ⟨27, _⟩ => ⟨S1x1, .i32⟩
  | .hbm, ⟨28, _⟩ => ⟨S300000x1, .i32⟩
  | .hbm, ⟨29, _⟩ => ⟨S300000x1, .i1⟩
  | .hbm, ⟨30, _⟩ => ⟨S300000x1, .i1⟩
  | .hbm, ⟨31, _⟩ => ⟨S_, .i1⟩
  | .hbm, ⟨32, _⟩ => ⟨S300000, .i1⟩
  | .hbm, ⟨33, _⟩ => ⟨S300000x256, .f32⟩
  | .hbm, ⟨34, _⟩ => ⟨S300000x256, .i1⟩
  | .hbm, ⟨35, _⟩ => ⟨S_, .f32⟩
  | .hbm, ⟨36, _⟩ => ⟨S300000x256, .f32⟩
  | .hbm, ⟨37, _⟩ => ⟨S300000x256, .f32⟩
  | .hbm, ⟨38, _⟩ => ⟨S_, .i32⟩
  | .hbm, ⟨39, _⟩ => ⟨S300000, .i32⟩
  | .hbm, ⟨40, _⟩ => ⟨S300000, .i1⟩
  | .hbm, ⟨41, _⟩ => ⟨S_, .i32⟩
  | .hbm, ⟨42, _⟩ => ⟨S300000, .i32⟩
  | .hbm, ⟨43, _⟩ => ⟨S300000, .i32⟩
  | .hbm, ⟨44, _⟩ => ⟨S300000, .i32⟩
  | .hbm, ⟨45, _⟩ => ⟨S300000x1, .i32⟩
  | .hbm, ⟨46, _⟩ => ⟨S1, .i32⟩
  | .hbm, ⟨47, _⟩ => ⟨S_, .i32⟩
  | .hbm, ⟨48, _⟩ => ⟨S300000x1, .i32⟩
  | .hbm, ⟨49, _⟩ => ⟨S300000x1, .i1⟩
  | .hbm, ⟨50, _⟩ => ⟨S1x1, .i32⟩
  | .hbm, ⟨51, _⟩ => ⟨S300000x1, .i32⟩
  | .hbm, ⟨52, _⟩ => ⟨S300000x1, .i1⟩
  | .hbm, ⟨53, _⟩ => ⟨S300000x1, .i1⟩
  | .hbm, ⟨54, _⟩ => ⟨S_, .i1⟩
  | .hbm, ⟨55, _⟩ => ⟨S300000, .i1⟩
  | .hbm, ⟨56, _⟩ => ⟨S300000x256, .f32⟩
  | .hbm, ⟨57, _⟩ => ⟨S300000x256, .i1⟩
  | .hbm, ⟨58, _⟩ => ⟨S_, .f32⟩
  | .hbm, ⟨59, _⟩ => ⟨S300000x256, .f32⟩
  | .hbm, ⟨60, _⟩ => ⟨S300000x256, .f32⟩
  | .hbm, ⟨61, _⟩ => ⟨S300000x256, .f32⟩
  | .hbm, ⟨62, _⟩ => ⟨S1x256, .f32⟩
  | .hbm, ⟨63, _⟩ => ⟨S300000x256, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S1x256, .f32⟩
  | .local _ .vmem, ⟨4, _⟩ => ⟨S2000x256, .f32⟩
  | .local _ .vmem, ⟨5, _⟩ => ⟨S2000x256, .f32⟩
  | .local _ .vmem, ⟨6, _⟩ => ⟨S6000x256, .f32⟩
  | .local _ .vmem, ⟨7, _⟩ => ⟨S6000x256, .f32⟩
  | .local _ .vmem, ⟨8, _⟩ => ⟨S256x256, .f32⟩
  | .local _ .vmem, ⟨9, _⟩ => ⟨S1x256, .f32⟩
  | .local _ .vmem, ⟨10, _⟩ => ⟨S6000x256, .f32⟩
  | .local _ .vmem, ⟨11, _⟩ => ⟨S6000x256, .f32⟩
  | .local _ .vmem, ⟨12, _⟩ => ⟨S6000x256, .f32⟩
  | .local _ .vmem, ⟨13, _⟩ => ⟨S6000x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_cst : Ref sig .tc := ⟨.hbm, 35, rfl⟩
abbrev main_call0_v15 : Ref sig .tc := ⟨.hbm, 36, rfl⟩
abbrev main_v8 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_call1_cst : Ref sig .tc := ⟨.hbm, 58, rfl⟩
abbrev main_call1_v15 : Ref sig .tc := ⟨.hbm, 59, rfl⟩
abbrev main_v9 : Ref sig .tc := ⟨.hbm, 60, rfl⟩
abbrev main_v10 : Ref sig .tc := ⟨.hbm, 61, rfl⟩
abbrev main_v11 : Ref sig .tc := ⟨.hbm, 62, rfl⟩
abbrev main_v12 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S6000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S6000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  transposes_S256x256_S256x256_1_0 : S256x256.Transposes [1, 0] S256x256
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  slices_S2x300000_S1x300000_0_0 : S2x300000.Slices ![0, 0] S1x300000
  shapeCasts_S1x300000_S300000 : S1x300000.ShapeCasts S300000
  slices_S2x300000_S1x300000_1_0 : S2x300000.Slices ![1, 0] S1x300000
  bcast_S_S300000 : S_.BroadcastsInDim S300000 (![] : Fin 0 → Fin S300000.rank)
  bcast_S300000_S300000x1_0 : S300000.BroadcastsInDim S300000x1 (![0] : Fin 1 → Fin S300000x1.rank)
  bcast_S_S300000x1 : S_.BroadcastsInDim S300000x1 (![] : Fin 0 → Fin S300000x1.rank)
  bcast_S1_S1x1_1 : S1.BroadcastsInDim S1x1 (![1] : Fin 1 → Fin S1x1.rank)
  bcast_S1x1_S300000x1_0_1 : S1x1.BroadcastsInDim S300000x1 (![0, 1] : Fin 2 → Fin S300000x1.rank)
  reducesTo_S300000x1_S300000_d1 : S300000x1.ReducesTo [1] S300000
  h_S_ : 0 < S_.numel
  bcast_S300000_S300000x256_0 : S300000.BroadcastsInDim S300000x256 (![0] : Fin 1 → Fin S300000x256.rank)
  bcast_S_S300000x256 : S_.BroadcastsInDim S300000x256 (![] : Fin 0 → Fin S300000x256.rank)
  inb_S6000x256_S6000x256_0_0 : ∀ a, (![0, 0] : Fin 2 → Nat) a + S6000x256.size a ≤ S6000x256.size a
  h_S6000x256 : 0 < S6000x256.numel
  broadcasts_S1x256_S6000x256 : S1x256.Broadcasts S6000x256
  shapeCasts_S6000x256_S6000x256 : S6000x256.ShapeCasts S6000x256
  dot_S2000x256_S256x256_S2000x256_1_0_0_1_n_n_wf : DotDims.WF S2000x256 S256x256 S2000x256 [1] [0] [0] [1] [] []
  gather_S10000x256_S300000x1_S300000x256_1_0_n_n_0_1_1256_wf : GatherDims.WF S10000x256 S300000x1 S300000x256 [1] [0] [] [0] [] 1 ![1, 256]
  dot_S6000x256_S256x256_S6000x256_1_0_0_1_n_n_wf : DotDims.WF S6000x256 S256x256 S6000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S10000x256.size a
  hwx0_0 : ∀ i : grid0.Coords, EltTy.bits .f32 = 32 ∨ (Rect.block (s := S10000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S10000x256.size a
  hwx0_3 : ∀ i : grid0.Coords, EltTy.bits .f32 = 32 ∨ (Rect.block (s := S10000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6000x256.size a ≤ S300000x256.size a
  hwx1_0 : ∀ i : grid1.Coords, EltTy.bits .f32 = 32 ∨ (Rect.block (s := S300000x256) S6000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S6000x256.size a ≤ S300000x256.size a
  hwx1_3 : ∀ i : grid1.Coords, EltTy.bits .f32 = 32 ∨ (Rect.block (s := S300000x256) S6000x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S6000x256.size a ≤ S300000x256.size a
  hwx1_4 : ∀ i : grid1.Coords, EltTy.bits .f32 = 32 ∨ (Rect.block (s := S300000x256) S6000x256.size (cc1_transform_4 i) (hinb1_4 i)).WholeWords (EltTy.packing .f32)

variable [Facts₀]

def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S10000x256_S300000x1_S300000x256_1_0_n_n_0_1_1256 : GatherDims S10000x256 S300000x1 S300000x256 where
  offsetDims := [1]
  collapsedSliceDims := [0]
  operandBatchingDims := []
  startIndicesBatchingDims := []
  startIndexMap := [0]
  indexVectorDim := 1
  sliceSizes := ![1, 256]
  wf := gather_S10000x256_S300000x1_S300000x256_1_0_n_n_0_1_1256_wf
def dot_S6000x256_S256x256_S6000x256_1_0_0_1_n_n : DotDims S6000x256 S256x256 S6000x256 where
  lhsContracting := [1]
  rhsContracting := [0]
  lhsNonContracting := [0]
  rhsNonContracting := [1]
  lhsBatch := []
  rhsBatch := []
  wf := dot_S6000x256_S256x256_S6000x256_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S6000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S6000x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v12) S6000x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S10000x256 : Shape := ⟨2, ![10000, 256]⟩
abbrev S300000x256 : Shape := ⟨2, ![300000, 256]⟩
abbrev S2x300000 : Shape := ⟨2, ![2, 300000]⟩
abbrev S256x256 : Shape := ⟨2, ![256, 256]⟩
abbrev S256 : Shape := ⟨1, ![256]⟩
abbrev S1x256 : Shape := ⟨2, ![1, 256]⟩
abbrev S1x300000 : Shape := ⟨2, ![1, 300000]⟩
abbrev S300000 : Shape := ⟨1, ![300000]⟩
abbrev S_ : Shape := ⟨0, ![]⟩
abbrev S300000x1 : Shape := ⟨2, ![300000, 1]⟩

abbrev nBuf : Space → Nat
  | .hbm => 39
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S300000x256, .f32⟩
  | .hbm, ⟨2, _⟩ => ⟨S2x300000, .i32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S300000x256, .f32⟩
  | .hbm, ⟨8, _⟩ => ⟨S1x256, .f32⟩
  | .hbm, ⟨9, _⟩ => ⟨S300000x256, .f32⟩
  | .hbm, ⟨10, _⟩ => ⟨S300000x256, .f32⟩
  | .hbm, ⟨11, _⟩ => ⟨S10000x256, .f32⟩
  | .hbm, ⟨12, _⟩ => ⟨S1x256, .f32⟩
  | .hbm, ⟨13, _⟩ => ⟨S10000x256, .f32⟩
  | .hbm, ⟨14, _⟩ => ⟨S10000x256, .f32⟩
  | .hbm, ⟨15, _⟩ => ⟨S1x300000, .i32⟩
  | .hbm, ⟨16, _⟩ => ⟨S300000, .i32⟩
  | .hbm, ⟨17, _⟩ => ⟨S1x300000, .i32⟩
  | .hbm, ⟨18, _⟩ => ⟨S300000, .i32⟩
  | .hbm, ⟨19, _⟩ => ⟨S_, .i32⟩
  | .hbm, ⟨20, _⟩ => ⟨S300000, .i32⟩
  | .hbm, ⟨21, _⟩ => ⟨S300000, .i1⟩
  | .hbm, ⟨22, _⟩ => ⟨S_, .i32⟩
  | .hbm, ⟨23, _⟩ => ⟨S300000, .i32⟩
  | .hbm, ⟨24, _⟩ => ⟨S300000, .i32⟩
  | .hbm, ⟨25, _⟩ => ⟨S300000, .i32⟩
  | .hbm, ⟨26, _⟩ => ⟨S300000x1, .i32⟩
  | .hbm, ⟨27, _⟩ => ⟨S300000x256, .f32⟩
  | .hbm, ⟨28, _⟩ => ⟨S300000x256, .f32⟩
  | .hbm, ⟨29, _⟩ => ⟨S_, .i32⟩
  | .hbm, ⟨30, _⟩ => ⟨S300000, .i32⟩
  | .hbm, ⟨31, _⟩ => ⟨S300000, .i1⟩
  | .hbm, ⟨32, _⟩ => ⟨S_, .i32⟩
  | .hbm, ⟨33, _⟩ => ⟨S300000, .i32⟩
  | .hbm, ⟨34, _⟩ => ⟨S300000, .i32⟩
  | .hbm, ⟨35, _⟩ => ⟨S300000, .i32⟩
  | .hbm, ⟨36, _⟩ => ⟨S300000x1, .i32⟩
  | .hbm, ⟨37, _⟩ => ⟨S300000x256, .f32⟩
  | .hbm, ⟨38, _⟩ => ⟨S300000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_v13 : Ref sig .tc := ⟨.hbm, 21, rfl⟩
abbrev main_c_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_1 : Ref sig .tc := ⟨.hbm, 29, rfl⟩
abbrev main_v20 : Ref sig .tc := ⟨.hbm, 30, rfl⟩
abbrev main_v21 : Ref sig .tc := ⟨.hbm, 31, rfl⟩
abbrev main_c_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S300000x256_0_1 : S1x256.BroadcastsInDim S300000x256 (![0, 1] : Fin 2 → Fin S300000x256.rank)
  bcast_S1x256_S10000x256_0_1 : S1x256.BroadcastsInDim S10000x256 (![0, 1] : Fin 2 → Fin S10000x256.rank)
  slices_S2x300000_S1x300000_0_0 : S2x300000.Slices ![0, 0] S1x300000
  shapeCasts_S1x300000_S300000 : S1x300000.ShapeCasts S300000
  slices_S2x300000_S1x300000_1_0 : S2x300000.Slices ![1, 0] S1x300000
  bcast_S_S300000 : S_.BroadcastsInDim S300000 (![] : Fin 0 → Fin S300000.rank)
  bcast_S300000_S300000x1_0 : S300000.BroadcastsInDim S300000x1 (![0] : Fin 1 → Fin S300000x1.rank)
  dot_S300000x256_S256x256_S300000x256_1_1_0_0_n_n_wf : DotDims.WF S300000x256 S256x256 S300000x256 [1] [1] [0] [0] [] []
  dot_S10000x256_S256x256_S10000x256_1_1_0_0_n_n_wf : DotDims.WF S10000x256 S256x256 S10000x256 [1] [1] [0] [0] [] []
  gather_S10000x256_S300000x1_S300000x256_1_0_n_n_0_1_1256_wf : GatherDims.WF S10000x256 S300000x1 S300000x256 [1] [0] [] [0] [] 1 ![1, 256]

variable [Facts₀]

def dot_S300000x256_S256x256_S300000x256_1_1_0_0_n_n : DotDims S300000x256 S256x256 S300000x256 where
  lhsContracting := [1]
  rhsContracting := [1]
  lhsNonContracting := [0]
  rhsNonContracting := [0]
  lhsBatch := []
  rhsBatch := []
  wf := dot_S300000x256_S256x256_S300000x256_1_1_0_0_n_n_wf
def dot_S10000x256_S256x256_S10000x256_1_1_0_0_n_n : DotDims S10000x256 S256x256 S10000x256 where
  lhsContracting := [1]
  rhsContracting := [1]
  lhsNonContracting := [0]
  rhsNonContracting := [0]
  lhsBatch := []
  rhsBatch := []
  wf := dot_S10000x256_S256x256_S10000x256_1_1_0_0_n_n_wf
def gather_S10000x256_S300000x1_S300000x256_1_0_n_n_0_1_1256 : GatherDims S10000x256 S300000x1 S300000x256 where
  offsetDims := [1]
  collapsedSliceDims := [0]
  operandBatchingDims := []
  startIndicesBatchingDims := []
  startIndexMap := [0]
  indexVectorDim := 1
  sliceSizes := ![1, 256]
  wf := gather_S10000x256_S300000x1_S300000x256_1_0_n_n_0_1_1256_wf

class Facts : Prop extends Facts₀ where

variable [Facts]
-- ==== Proof.IndexRange.lean ====
/-
  The index range, read out of the precondition.

  The precondition is a conjunction that ends in two tests of the edge-index array, each an "all" over its 2 × 300000
  entries: every entry is at least −10000, and every entry is less than 10000 (signed 32-bit compares against constant
  words). When the whole conjunction is the word 1 both tests are 1, so each of their entries is 1, which says that every
  entry of the edge-index array, read as a signed integer, lies in [−10000, 10000): the range in which numpy-style
  indexing of a 10000-row table is defined.
-/
import proofs.«410712_j33741263077803_1_alg».proof.Pre_finite_inputs
import Idealize.ShloMosaic.Lib.ReduceAll
import Idealize.ShloMosaic.Lib.ValueIdx
import Idealize.ShloMosaic.Lib.StableHlo.Predicate

namespace Cert.IndexRange

open Idealize.ShloMosaic Cert.Pre_finite_inputs

variable [Cert.Pre_finite_inputs.Facts]

/-- A rank-0 array has one index. -/
instance : Subsingleton S_.Idx := ⟨fun a b => funext fun d => d.elim0⟩

/-- Under the precondition every edge index lies in [−10000, 10000). -/
theorem range_of_pre {F : FTy → Type} [FloatOps F] (a0 : FVec F S10000x256 .f32) (a1 : FVec F S300000x256 .f32)
    (ei : IVec S2x300000 32) (a3 : FVec F S256x256 .f32) (a4 : FVec F S256 .f32) (a5 : FVec F S256x256 .f32)
    (a6 : FVec F S256 .f32) (h : fn (F := F) a0 a1 ei a3 a4 a5 a6 = fun _ => 1#1) (i : S2x300000.Idx) :
    -10000 ≤ (ei i).toInt ∧ (ei i).toInt < 10000 := by
  have h0 := congrFun h ValueIdx.ix0
  dsimp only [fn, fn_part1, fn_part2] at h0
  obtain ⟨h32, h35⟩ := IntOp.andi_eq_one.1 h0
  obtain ⟨-, h31⟩ := IntOp.andi_eq_one.1 h32
  have hge := Host.reduce_andi_all _ _ _ _ _ h31 i
  have hlt := Host.reduce_andi_all _ _ _ _ _ h35 i
  have hge' : (4294957296#32 : BitVec 32).toInt ≤ (ei i).toInt := IntOp.cmpi_sge.1 hge
  have hlt' : (ei i).toInt < (10000#32 : BitVec 32).toInt := IntOp.cmpi_slt.1 hlt
  have e1 : (4294957296#32 : BitVec 32).toInt = -10000 := by decide
  have e2 : (10000#32 : BitVec 32).toInt = 10000 := by decide
  omega

end Cert.IndexRange
-- ==== Proof.LibDense.lean ====
/-
  Dense layers at the ideal values, read entry by entry.

  An affine layer sends an n × k array x, a k × m array w and a row of m biases β to the n × m array whose entry (a, c) is
  ∑ j, x(a, j) · w(j, c) + β(c); a rectifier takes the maximum with 0 entry by entry. On the extended reals both are
  what a kernel's matrix product into a zero accumulator plus a broadcast one-row bias computes, and what a host
  dot_general plus a twice-broadcast bias vector computes (the sums are over the contracted coordinate; neither spelling has
  another term). Three arrays laid side by side along the columns and contracted against one weight array give the sum of
  the three partial products against the weight array's three row bands: a finite sum over k₁ + k₂ + k₃ terms split at k₁
  and k₁ + k₂, which needs only that addition is associative and commutative, so it holds at the infinities too.
  Entry (a, c) of a layer depends on row a of its input only, so a network of such layers applied to a block of rows
  agrees with the network applied to the whole array on the rows of the block.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.KernelVsHost
import Idealize.ShloMosaic.Lib.StackMember

noncomputable section

open scoped BigOperators

namespace Cert.LibDense

open Idealize.ShloMosaic Idealize.ShloMosaic.ValueIdx

/-- An n × m array of extended reals. -/
abbrev Mat (n m : Nat) : Type := (⟨2, ![n, m]⟩ : Shape).Idx → EReal

section Layers
variable {n k m : Nat}

/-- The affine layer: entry (a, c) is ∑ j, x(a, j) · w(j, c) + β(c). -/
def aff (x : Mat n k) (w : Mat k m) (β : Fin m → EReal) : Mat n m :=
  fun i => ∑ j : Fin k, x (ix2 (i 0) j) * w (ix2 j (i 1)) + β (i 1)

theorem aff_apply (x : Mat n k) (w : Mat k m) (β : Fin m → EReal) (a : Fin n) (c : Fin m) :
    aff x w β (ix2 a c) = ∑ j : Fin k, x (ix2 a j) * w (ix2 j c) + β c := rfl

/-- The rectifier: the maximum with 0, entry by entry. -/
def relu (y : Mat n m) : Mat n m := fun i => max (y i) 0

theorem relu_apply (y : Mat n m) (i : (⟨2, ![n, m]⟩ : Shape).Idx) : relu y i = max (y i) 0 := rfl

/-- A kernel's layer: the matrix product accumulated into a zero splat, plus a one-row bias broadcast down the rows. -/
theorem kernel_layer {φ₁ φ₂ : FTy} (d : DotDims ⟨2, ![n, k]⟩ ⟨2, ![k, m]⟩ ⟨2, ![n, m]⟩) (hd : d = DotDims.plain n k m)
    (x : FVec Ideal ⟨2, ![n, k]⟩ φ₁) (w : FVec Ideal ⟨2, ![k, m]⟩ φ₂) (brow : FVec Ideal ⟨2, ![1, m]⟩ .f32)
    (hb : (⟨2, ![1, m]⟩ : Shape).Broadcasts ⟨2, ![n, m]⟩) :
    addf (matmul d none x w (constant ⟨2, ![n, m]⟩ .f32 0x00000000#32)) (broadcastTo ⟨2, ![n, m]⟩ brow hb)
      = aff x w (fun c => brow (ix2 (0 : Fin 1) c)) := by
  subst hd
  funext i
  obtain ⟨a, c, rfl⟩ : ∃ (a : Fin n) (c : Fin m), i = ix2 a c := ⟨i 0, i 1, eq_ix2 i⟩
  rw [addf_apply, matmul_zero_eq_dotGeneral, StackMember.dotGeneral_plain_apply, broadcastTo_1b_ab_apply]
  rfl

/-- A kernel's matrix product into a zero splat, with no bias: the sums alone. -/
theorem kernel_product {φ₁ φ₂ : FTy} (d : DotDims ⟨2, ![n, k]⟩ ⟨2, ![k, m]⟩ ⟨2, ![n, m]⟩) (hd : d = DotDims.plain n k m)
    (x : FVec Ideal ⟨2, ![n, k]⟩ φ₁) (w : FVec Ideal ⟨2, ![k, m]⟩ φ₂) (a : Fin n) (c : Fin m) :
    matmul d none x w (constant ⟨2, ![n, m]⟩ .f32 0x00000000#32) (ix2 a c) = ∑ j : Fin k, x (ix2 a j) * w (ix2 j c) := by
  subst hd
  rw [matmul_zero_eq_dotGeneral, StackMember.dotGeneral_plain_apply]

/-- A vector laid out as one row reads, at (0, c), the vector at c. -/
theorem row_of_vector {α : Type} (b : (⟨1, ![m]⟩ : Shape).Idx → α)
    (h1 : (⟨1, ![m]⟩ : Shape).BroadcastsInDim ⟨2, ![1, m]⟩ ![1]) (c : Fin m) :
    broadcastInDim ⟨2, ![1, m]⟩ ![1] h1 b (ix2 (0 : Fin 1) c) = b (ix1 c) := by
  refine broadcastInDim_apply ![1] h1 b (ix2 (0 : Fin 1) c) (ix1 c) ?_
  intro a
  match a with
  | ⟨0, _⟩ =>
    show c.val = if m = 1 then 0 else c.val
    split
    · have := c.isLt; omega
    · rfl

/-- The host's layer: the dot_general plus the bias vector laid out as a row and broadcast down the rows. -/
theorem host_layer {φ₁ φ₂ : FTy} (d : DotDims ⟨2, ![n, k]⟩ ⟨2, ![k, m]⟩ ⟨2, ![n, m]⟩) (hd : d = DotDims.plain n k m)
    (x : FVec Ideal ⟨2, ![n, k]⟩ φ₁) (w : FVec Ideal ⟨2, ![k, m]⟩ φ₂) (b : FVec Ideal ⟨1, ![m]⟩ .f32)
    (h1 : (⟨1, ![m]⟩ : Shape).BroadcastsInDim ⟨2, ![1, m]⟩ ![1])
    (h2 : (⟨2, ![1, m]⟩ : Shape).BroadcastsInDim ⟨2, ![n, m]⟩ ![0, 1]) :
    addf (Host.dotGeneral d none x w) (broadcastInDim ⟨2, ![n, m]⟩ ![0, 1] h2 (broadcastInDim ⟨2, ![1, m]⟩ ![1] h1 b))
      = aff x w (fun c => b (ix1 c)) := by
  subst hd
  funext i
  obtain ⟨a, c, rfl⟩ : ∃ (a : Fin n) (c : Fin m), i = ix2 a c := ⟨i 0, i 1, eq_ix2 i⟩
  rw [addf_apply, StackMember.dotGeneral_plain_apply, broadcastInDim_oneRow_apply, row_of_vector]
  rfl

/-- A kernel's rectifier: the maximum with a splat of the zero word. -/
theorem kernel_relu (y : FVec Ideal ⟨2, ![n, m]⟩ .f32) :
    maximumf y (broadcast ⟨2, ![n, m]⟩ (Scalar.ofBits (F := Ideal) .f32 0x00000000#32)) = relu y := by
  funext i
  show max (y i) (Ideal.ofBits .f32 0x00000000#32) = max (y i) 0
  rw [Ideal.ofBits_zero_f32]

/-- The host's rectifier: the maximum with the zero constant broadcast to the array's shape. -/
theorem host_relu (y : FVec Ideal ⟨2, ![n, m]⟩ .f32)
    (h : (⟨0, ![]⟩ : Shape).BroadcastsInDim ⟨2, ![n, m]⟩ (![] : Fin 0 → Fin 2)) :
    maximumf y (broadcastInDim ⟨2, ![n, m]⟩ ![] h (constant (F := Ideal) ⟨0, ![]⟩ .f32 0x00000000#32)) = relu y := by
  funext i
  rw [maximumf_apply, broadcastInDim_apply ![] h _ i ix0 (fun a => a.elim0), constant_apply, Ideal.ofBits_zero_f32]
  rfl

/-- At the ideal values a narrowing change of format is the identity on the whole array. -/
theorem truncf_id {s : Shape} {φ ψ : FTy} (a : FVec Ideal s φ) (h : ψ.bits < φ.bits) :
    (truncf ψ a h : s.Idx → EReal) = a := rfl

end Layers

/-! ## Three arrays side by side, contracted against one weight array -/

section Split
variable {n k₁ k₂ k₃ K m : Nat}

/-- Three arrays of k₁, k₂ and k₃ columns laid side by side. -/
def cat3 (hK : k₁ + k₂ + k₃ = K) (x₁ : Mat n k₁) (x₂ : Mat n k₂) (x₃ : Mat n k₃) : Mat n K := fun i =>
  if h₁ : (i 1).val < k₁ then x₁ (ix2 (i 0) ⟨(i 1).val, h₁⟩)
  else if h₂ : (i 1).val < k₁ + k₂ then x₂ (ix2 (i 0) ⟨(i 1).val - k₁, by omega⟩)
  else x₃ (ix2 (i 0) ⟨(i 1).val - (k₁ + k₂), by have := idx2_lt1 i; omega⟩)

theorem cat3_apply (hK : k₁ + k₂ + k₃ = K) (x₁ : Mat n k₁) (x₂ : Mat n k₂) (x₃ : Mat n k₃) (a : Fin n) (j : Fin K) :
    cat3 hK x₁ x₂ x₃ (ix2 a j)
      = if h₁ : j.val < k₁ then x₁ (ix2 a ⟨j.val, h₁⟩)
        else if h₂ : j.val < k₁ + k₂ then x₂ (ix2 a ⟨j.val - k₁, by omega⟩)
        else x₃ (ix2 a ⟨j.val - (k₁ + k₂), by have := j.isLt; omega⟩) := rfl

/-- Rows o, o + 1, … of a weight array, as many as the band has. -/
def band {k : Nat} (o : Nat) (ho : o + k ≤ K) (w : Mat K m) : Mat k m :=
  fun i => w (ix2 ⟨o + (i 0).val, by have := idx2_lt0 i; omega⟩ (i 1))

/-- The first layer in its three-product form: the partial products against the three row bands, then the bias. -/
def aff3 (x₁ : Mat n k₁) (x₂ : Mat n k₂) (x₃ : Mat n k₃) (w₁ : Mat k₁ m) (w₂ : Mat k₂ m) (w₃ : Mat k₃ m)
    (β : Fin m → EReal) : Mat n m :=
  fun i => (∑ j : Fin k₁, x₁ (ix2 (i 0) j) * w₁ (ix2 j (i 1)) + ∑ j : Fin k₂, x₂ (ix2 (i 0) j) * w₂ (ix2 j (i 1)))
    + ∑ j : Fin k₃, x₃ (ix2 (i 0) j) * w₃ (ix2 j (i 1)) + β (i 1)

theorem aff3_apply (x₁ : Mat n k₁) (x₂ : Mat n k₂) (x₃ : Mat n k₃) (w₁ : Mat k₁ m) (w₂ : Mat k₂ m) (w₃ : Mat k₃ m)
    (β : Fin m → EReal) (a : Fin n) (c : Fin m) :
    aff3 x₁ x₂ x₃ w₁ w₂ w₃ β (ix2 a c)
      = (∑ j : Fin k₁, x₁ (ix2 a j) * w₁ (ix2 j c) + ∑ j : Fin k₂, x₂ (ix2 a j) * w₂ (ix2 j c))
        + ∑ j : Fin k₃, x₃ (ix2 a j) * w₃ (ix2 j c) + β c := rfl

/-- A kernel's first layer written as three matrix products into zero splats, added, plus a one-row bias broadcast down
    the rows: the three-product form. -/
theorem kernel_layer3 {φ₁ φ₂ φ₃ ψ₁ ψ₂ ψ₃ : FTy}
    (d₁ : DotDims ⟨2, ![n, k₁]⟩ ⟨2, ![k₁, m]⟩ ⟨2, ![n, m]⟩) (hd₁ : d₁ = DotDims.plain n k₁ m)
    (d₂ : DotDims ⟨2, ![n, k₂]⟩ ⟨2, ![k₂, m]⟩ ⟨2, ![n, m]⟩) (hd₂ : d₂ = DotDims.plain n k₂ m)
    (d₃ : DotDims ⟨2, ![n, k₃]⟩ ⟨2, ![k₃, m]⟩ ⟨2, ![n, m]⟩) (hd₃ : d₃ = DotDims.plain n k₃ m)
    (x₁ : FVec Ideal ⟨2, ![n, k₁]⟩ φ₁) (w₁ : FVec Ideal ⟨2, ![k₁, m]⟩ ψ₁)
    (x₂ : FVec Ideal ⟨2, ![n, k₂]⟩ φ₂) (w₂ : FVec Ideal ⟨2, ![k₂, m]⟩ ψ₂)
    (x₃ : FVec Ideal ⟨2, ![n, k₃]⟩ φ₃) (w₃ : FVec Ideal ⟨2, ![k₃, m]⟩ ψ₃)
    (brow : FVec Ideal ⟨2, ![1, m]⟩ .f32) (hb : (⟨2, ![1, m]⟩ : Shape).Broadcasts ⟨2, ![n, m]⟩) :
    addf (addf (addf (matmul d₁ none x₁ w₁ (constant ⟨2, ![n, m]⟩ .f32 0x00000000#32))
          (matmul d₂ none x₂ w₂ (constant ⟨2, ![n, m]⟩ .f32 0x00000000#32)))
        (matmul d₃ none x₃ w₃ (constant ⟨2, ![n, m]⟩ .f32 0x00000000#32)))
      (broadcastTo ⟨2, ![n, m]⟩ brow hb)
      = aff3 x₁ x₂ x₃ w₁ w₂ w₃ (fun c => brow (ix2 (0 : Fin 1) c)) := by
  funext i
  obtain ⟨a, c, rfl⟩ : ∃ (a : Fin n) (c : Fin m), i = ix2 a c := ⟨i 0, i 1, eq_ix2 i⟩
  rw [addf_apply, addf_apply, addf_apply, kernel_product d₁ hd₁, kernel_product d₂ hd₂, kernel_product d₃ hd₃,
    broadcastTo_1b_ab_apply]
  rfl

/-- THE LAW: contracting the side-by-side array against a weight array is the sum of the three partial products against
    its row bands. A finite sum split in three; no cancellation, so it holds at the infinities. -/
theorem aff_cat3 (hK : k₁ + k₂ + k₃ = K) (x₁ : Mat n k₁) (x₂ : Mat n k₂) (x₃ : Mat n k₃) (w : Mat K m)
    (β : Fin m → EReal) :
    aff (cat3 hK x₁ x₂ x₃) w β
      = aff3 x₁ x₂ x₃ (band 0 (by omega) w) (band k₁ (by omega) w) (band (k₁ + k₂) (by omega) w) β := by
  subst hK
  funext i
  obtain ⟨a, c, rfl⟩ : ∃ (a : Fin n) (c : Fin m), i = ix2 a c := ⟨i 0, i 1, eq_ix2 i⟩
  rw [aff_apply, aff3_apply, Fin.sum_univ_add, Fin.sum_univ_add]
  congr 1
  congr 1
  · congr 1
    · refine Finset.sum_congr rfl fun j _ => ?_
      have hj : (Fin.castAdd k₃ (Fin.castAdd k₂ j)).val < k₁ := j.isLt
      have e : cat3 rfl x₁ x₂ x₃ (ix2 a (Fin.castAdd k₃ (Fin.castAdd k₂ j))) = x₁ (ix2 a j) := by
        rw [cat3_apply, dif_pos hj]
        rfl
      rw [e]
      refine congrArg (x₁ (ix2 a j) * ·) (congrArg w ?_)
      funext ax
      match ax with
      | ⟨0, _⟩ => exact Fin.ext (by show j.val = 0 + j.val; omega)
      | ⟨1, _⟩ => rfl
    · refine Finset.sum_congr rfl fun j _ => ?_
      have hv : (Fin.castAdd k₃ (Fin.natAdd k₁ j)).val = k₁ + j.val := rfl
      have hn : ¬ (Fin.castAdd k₃ (Fin.natAdd k₁ j)).val < k₁ := by rw [hv]; omega
      have hj : (Fin.castAdd k₃ (Fin.natAdd k₁ j)).val < k₁ + k₂ := by rw [hv]; have := j.isLt; omega
      have e : cat3 rfl x₁ x₂ x₃ (ix2 a (Fin.castAdd k₃ (Fin.natAdd k₁ j))) = x₂ (ix2 a j) := by
        rw [cat3_apply, dif_neg hn, dif_pos hj]
        refine congrArg x₂ ?_
        funext ax
        match ax with
        | ⟨0, _⟩ => rfl
        | ⟨1, _⟩ => exact Fin.ext (by show k₁ + j.val - k₁ = j.val; omega)
      rw [e]
      refine congrArg (x₂ (ix2 a j) * ·) (congrArg w ?_)
      funext ax
      match ax with
      | ⟨0, _⟩ => rfl
      | ⟨1, _⟩ => rfl
  · refine Finset.sum_congr rfl fun j _ => ?_
    have hv : (Fin.natAdd (k₁ + k₂) j).val = k₁ + k₂ + j.val := rfl
    have hn₁ : ¬ (Fin.natAdd (k₁ + k₂) j).val < k₁ := by rw [hv]; omega
    have hn₂ : ¬ (Fin.natAdd (k₁ + k₂) j).val < k₁ + k₂ := by rw [hv]; omega
    have e : cat3 rfl x₁ x₂ x₃ (ix2 a (Fin.natAdd (k₁ + k₂) j)) = x₃ (ix2 a j) := by
      rw [cat3_apply, dif_neg hn₁, dif_neg hn₂]
      refine congrArg x₃ ?_
      funext ax
      match ax with
      | ⟨0, _⟩ => rfl
      | ⟨1, _⟩ => exact Fin.ext (by show k₁ + k₂ + j.val - (k₁ + k₂) = j.val; omega)
    rw [e]
    refine congrArg (x₃ (ix2 a j) * ·) (congrArg w ?_)
    funext ax
    match ax with
    | ⟨0, _⟩ => rfl
    | ⟨1, _⟩ => rfl

end Split

/-! ## A layer's row depends on the same row of its input -/

section Rows
variable {n n' k m : Nat}

/-- Row p of x' is row r of x. -/
def RowEq (x' : Mat n' k) (x : Mat n k) (p : Fin n') (r : Fin n) : Prop := ∀ j : Fin k, x' (ix2 p j) = x (ix2 r j)

theorem RowEq.aff {x' : Mat n' k} {x : Mat n k} {p : Fin n'} {r : Fin n} (h : RowEq x' x p r) (w : Mat k m)
    (β : Fin m → EReal) : RowEq (aff x' w β) (aff x w β) p r := fun c => by
  rw [aff_apply, aff_apply]
  exact congrArg (· + β c) (Finset.sum_congr rfl fun j _ => by rw [h j])

theorem RowEq.relu {x' : Mat n' k} {x : Mat n k} {p : Fin n'} {r : Fin n} (h : RowEq x' x p r) :
    RowEq (relu x') (relu x) p r := fun c => by
  rw [relu_apply, relu_apply, h c]

theorem RowEq.aff3 {k₁ k₂ k₃ : Nat} {x₁' : Mat n' k₁} {x₁ : Mat n k₁} {x₂' : Mat n' k₂} {x₂ : Mat n k₂}
    {x₃' : Mat n' k₃} {x₃ : Mat n k₃} {p : Fin n'} {r : Fin n}
    (h₁ : RowEq x₁' x₁ p r) (h₂ : RowEq x₂' x₂ p r) (h₃ : RowEq x₃' x₃ p r)
    (w₁ : Mat k₁ m) (w₂ : Mat k₂ m) (w₃ : Mat k₃ m) (β : Fin m → EReal) :
    RowEq (aff3 x₁' x₂' x₃' w₁ w₂ w₃ β) (aff3 x₁ x₂ x₃ w₁ w₂ w₃ β) p r := fun c => by
  rw [aff3_apply, aff3_apply]
  have e₁ : ∑ j : Fin k₁, x₁' (ix2 p j) * w₁ (ix2 j c) = ∑ j : Fin k₁, x₁ (ix2 r j) * w₁ (ix2 j c) :=
    Finset.sum_congr rfl fun j _ => by rw [h₁ j]
  have e₂ : ∑ j : Fin k₂, x₂' (ix2 p j) * w₂ (ix2 j c) = ∑ j : Fin k₂, x₂ (ix2 r j) * w₂ (ix2 j c) :=
    Finset.sum_congr rfl fun j _ => by rw [h₂ j]
  have e₃ : ∑ j : Fin k₃, x₃' (ix2 p j) * w₃ (ix2 j c) = ∑ j : Fin k₃, x₃ (ix2 r j) * w₃ (ix2 j c) :=
    Finset.sum_congr rfl fun j _ => by rw [h₃ j]
  rw [e₁, e₂, e₃]

end Rows

end Cert.LibDense

end
-- ==== Proof.Body.lean ====
/-
  The two kernel bodies at the ideal values.

  Each body loads a block of rows, a 256 × 256 weight array and a one-row bias, multiplies the rows by the weights on
  the matrix unit into a zero accumulator and adds the bias row to every row; the second body then adds a fourth loaded
  block entry by entry. Narrowing the operands to bf16 is the identity on extended reals, and a cast of an array to its
  own shape is the array. So entry (a, c) of what the first body stores is ∑ j, x(a, j) · w(j, c) + β(c): the affine layer
  of the rows, and of what the second stores that layer's entry plus the fourth block's entry.
-/
import proofs.«410712_j33741263077803_1_alg».proof.Proof.Gen.KernelIdeal.Skeleton
import proofs.«410712_j33741263077803_1_alg».proof.Proof.LibDense
import Idealize.ShloMosaic.Lib.Pipeline.Value

noncomputable section

namespace Cert.KernelIdeal.Body

open Idealize.ShloMosaic Idealize.ShloMosaic.ValueIdx Cert.KernelIdeal Cert.KernelIdeal.Gen Cert.LibDense

/-- The first body's dimension numbers are those of a plain product [2000, 256] × [256, 256]. -/
theorem dims0 : dot_S2000x256_S256x256_S2000x256_1_0_0_1_n_n = DotDims.plain 2000 256 256 := rfl

/-- The second body's dimension numbers are those of a plain product [6000, 256] × [256, 256]. -/
theorem dims1 : dot_S6000x256_S256x256_S6000x256_1_0_0_1_n_n = DotDims.plain 6000 256 256 := rfl

/-- What the first body stores: the affine layer of its block of rows. -/
theorem pay0 (v0 : Vec Ideal S2000x256 .f32) (v2 : Vec Ideal S256x256 .f32) (v6 : Vec Ideal S1x256 .f32) :
    k0_pay1 (F := Ideal) v0 v2 v6 = aff (n := 2000) (k := 256) (m := 256) v0 v2 (fun c => v6 (ix2 (0 : Fin 1) c)) := by
  unfold k0_pay1
  simp only [shapeCast_self]
  exact kernel_layer _ dims0 _ _ _ _

/-- What the second body stores: the affine layer of its block of rows plus the fourth block, entry by entry. -/
theorem pay1 (v0 : Vec Ideal S6000x256 .f32) (v2 : Vec Ideal S256x256 .f32) (v6 : Vec Ideal S1x256 .f32)
    (v10 : Vec Ideal S6000x256 .f32) :
    k1_pay1 (F := Ideal) v0 v2 v6 v10
      = fun i => aff (n := 6000) (k := 256) (m := 256) v0 v2 (fun c => v6 (ix2 (0 : Fin 1) c)) i + v10 i := by
  unfold k1_pay1
  simp only [shapeCast_self]
  rw [kernel_layer _ dims1]
  rfl

end Cert.KernelIdeal.Body

end
-- ==== Proof.Region0.lean ====
/-
  The first pallas_call's result array, whatever the buffers hold when the call is entered.

  The call walks five blocks of 2000 rows of the node features; at block t it reads rows 2000·t … 2000·t + 1999, the whole
  256 × 256 weight array and the whole bias row, and writes the affine layer of those rows to rows 2000·t … of the result.
  An entry of an affine layer depends on its own row of the input only, so block t of the result is block t of the affine
  layer of the whole array; the five blocks tile the 10000 rows (row r lies in block r / 2000), so the result array ends
  holding the affine layer of the whole node-feature array.
-/
import proofs.«410712_j33741263077803_1_alg».proof.Proof.Gen.KernelIdeal.Frame
import proofs.«410712_j33741263077803_1_alg».proof.Proof.Body
import Idealize.ShloMosaic.Lib.Pipeline.Value

noncomputable section

namespace Cert.KernelIdeal.Region0

open Idealize.ShloMosaic Idealize.ShloMosaic.TcCoe Idealize.ShloMosaic.ValueIdx Idealize.SL.Sem
open Idealize.ShloMosaic.Pipeline (Dat)
open Cert.KernelIdeal Cert.KernelIdeal.Gen Cert.LibDense

variable (V : (c : Dev nD) → (b : Ref sig .tc) → Buf (Elt Ideal) ((c : Thread nD τ).loc b))

theorem hz : (![0, 0] : Fin 2 → Nat) = fun _ => 0 := funext fun a => by fin_cases a <;> rfl

/-- The node features, the weights and the bias row as the call finds them. -/
abbrev xarr (c : Dev nD) : Mat 10000 256 := V c main_arg0
abbrev warr (c : Dev nD) : Mat 256 256 := V c main_v0
abbrev barr (c : Dev nD) : Mat 1 256 := V c main_v2

/-- The blocks the body loads at grid point t. -/
abbrev xblk (c : Dev nD) (t : Fin cfg0.N) : Mat 2000 256 := iblk0 V c 0 t
abbrev wblk (c : Dev nD) (t : Fin cfg0.N) : Mat 256 256 := iblk0 V c 1 t
abbrev bblk (c : Dev nD) (t : Fin cfg0.N) : Mat 1 256 := iblk0 V c 2 t

/-- The affine layer of the whole node-feature array. -/
def nodeProj (c : Dev nD) : Mat 10000 256 := aff (xarr V c) (warr V c) (fun k => barr V c (ix2 (0 : Fin 1) k))

/-- Which block each window is on at grid point t: the rows' windows on block t, the weights and bias on block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of the rows' block at point t is row 2000·t + p of the array. -/
theorem xblk_row (c : Dev nD) (t : Fin cfg0.N) (p : Fin 2000) (r : Fin 10000) (hr : r.val = t.val * 2000 + p.val) :
    RowEq (xblk V c t) (xarr V c) p r := by
  intro j
  obtain ⟨e0, e1, -⟩ := idx_facts t
  show V c main_arg0 (((cfg0.win 0).blk t).view.emb (ix2 p j)) = V c main_arg0 (ix2 r j)
  congr 1
  funext a
  apply Fin.ext
  match a with
  | ⟨0, _⟩ => show win0_0.index t (0 : Fin 2) * 2000 + 1 * p.val = r.val; omega
  | ⟨1, _⟩ => show win0_0.index t (1 : Fin 2) * 256 + 1 * j.val = j.val; omega

/-- The weights' block is the whole weight array. -/
theorem wblk_eq (c : Dev nD) (t : Fin cfg0.N) : wblk V c t = warr V c := by
  funext y
  obtain ⟨-, -, e0, e1, -⟩ := idx_facts t
  show V c main_v0 (((cfg0.win 1).blk t).view.emb y) = V c main_v0 y
  congr 1
  funext a
  apply Fin.ext
  match a with
  | ⟨0, _⟩ => show win0_1.index t (0 : Fin 2) * 256 + 1 * (y 0).val = (y 0).val; omega
  | ⟨1, _⟩ => show win0_1.index t (1 : Fin 2) * 256 + 1 * (y 1).val = (y 1).val; omega

/-- The bias block is the whole bias row. -/
theorem bblk_eq (c : Dev nD) (t : Fin cfg0.N) : bblk V c t = barr V c := by
  funext y
  obtain ⟨-, -, -, -, e0, e1, -⟩ := idx_facts t
  show V c main_v2 (((cfg0.win 2).blk t).view.emb y) = V c main_v2 y
  congr 1
  funext a
  apply Fin.ext
  match a with
  | ⟨0, _⟩ => show win0_2.index t (0 : Fin 2) * 1 + 1 * (y 0).val = (y 0).val; omega
  | ⟨1, _⟩ => show win0_2.index t (1 : Fin 2) * 256 + 1 * (y 1).val = (y 1).val; omega

/-- What grid point t writes back is block t of the affine layer of the whole array. -/
theorem flushed_eq (c : Dev nD) (t : Fin cfg0.N) :
    (dat0 V c).flushed 3 t = ((cfg0.win 3).blk t).view.read (Elt Ideal) (nodeProj V c) := by
  show (cfg0.win 3).cut (grid0.coords t) ((dat0 V c).after 3 t) = _
  rw [after0_3]
  unfold out0_3
  rw [View.canon_unit_zero hz]
  simp only [View.ld_unit_zero (S := S2000x256) hz, View.ld_unit_zero (S := S256x256) hz, View.ld_unit_zero (S := S1x256) hz]
  rw [Body.pay0]
  obtain ⟨-, -, -, -, -, -, e0, e1⟩ := idx_facts t
  funext j
  obtain ⟨p, q, rfl⟩ : ∃ (p : Fin 2000) (q : Fin 256), j = ix2 p q := ⟨j 0, j 1, eq_ix2 j⟩
  show aff (xblk V c t) (wblk V c t) (fun k => bblk V c t (ix2 (0 : Fin 1) k)) (ix2 p q)
    = nodeProj V c (((cfg0.win 3).blk t).view.emb (ix2 p q))
  rw [wblk_eq, bblk_eq]
  have hN : cfg0.N = 5 := N_0
  have ht : t.val < 5 := hN ▸ t.isLt
  have he : ((cfg0.win 3).blk t).view.emb (ix2 p q)
      = ix2 (⟨t.val * 2000 + p.val, by omega⟩ : Fin 10000) q := by
    funext a
    apply Fin.ext
    match a with
    | ⟨0, _⟩ => show win0_3.index t (0 : Fin 2) * 2000 + 1 * p.val = t.val * 2000 + p.val; omega
    | ⟨1, _⟩ => show win0_3.index t (1 : Fin 2) * 256 + 1 * q.val = q.val; omega
  rw [he]
  exact (xblk_row V c t p _ rfl).aff _ _ q

/-- An index of the result array is in point t's block iff its row is among the block's 2000 rows. -/
theorem mem_blk (t : Fin cfg0.N) (i : S10000x256.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_v3).slice (win0_3.rect t)).set ↔ _
  rw [View.set_slice_whole, Rect.mem_set_unit]
  exact Iff.rfl

/-- The five blocks tile the array: row r lies in block r / 2000. -/
theorem cover (i : S10000x256.Idx) :
    ∃ t : Fin cfg0.N, (cfg0.win 3).flush t = true ∧ i ∈ ((cfg0.win 3).blk t).view.set := by
  have hi0 : (i 0).val < 10000 := (i 0).isLt
  have hi1 : (i 1).val < 256 := (i 1).isLt
  have hN : cfg0.N = 5 := N_0
  refine ⟨⟨(i 0).val / 2000, by omega⟩, flush0_3 _, ?_⟩
  rw [mem_blk]
  obtain ⟨-, -, -, -, -, -, e0, e1⟩ := idx_facts ⟨(i 0).val / 2000, by omega⟩
  intro a
  match a with
  | ⟨0, _⟩ =>
    show win0_3.index _ (0 : Fin 2) * 2000 ≤ (i 0).val ∧ (i 0).val < win0_3.index _ (0 : Fin 2) * 2000 + 2000
    rw [e0]
    show (i 0).val / 2000 * 2000 ≤ (i 0).val ∧ (i 0).val < (i 0).val / 2000 * 2000 + 2000
    omega
  | ⟨1, _⟩ =>
    show win0_3.index _ (1 : Fin 2) * 256 ≤ (i 1).val ∧ (i 1).val < win0_3.index _ (1 : Fin 2) * 256 + 256
    rw [e1]
    omega

/-- THE RESULT ARRAY of the first call: the affine layer of the node features as the call finds them. -/
theorem final (c : Dev nD) : (dat0 V c).arrAt 3 cfg0.N = nodeProj V c :=
  (dat0 V c).arrAt_eq_of_cover 3 (nodeProj V c) (fun t _ => flushed_eq V c t) (cover)

end Cert.KernelIdeal.Region0

end
-- ==== Proof.Region1.lean ====
/-
  The second pallas_call's result array, whatever the buffers hold when the call is entered.

  The call walks fifty blocks of 6000 rows of the edge features; at block t it reads rows 6000·t … 6000·t + 5999 of the edge
  features and of the array of gathered node projections, the whole 256 × 256 weight array and the whole bias row, and
  writes, to the same rows of the result, the affine layer of the edge rows plus the gathered rows, entry by entry. Both
  summands at entry (r, c) depend on row r of their inputs only, so block t of the result is block t of that one function
  of the whole arrays; the fifty blocks tile the 300000 rows (row r lies in block r / 6000).
-/
import proofs.«410712_j33741263077803_1_alg».proof.Proof.Gen.KernelIdeal.Frame
import proofs.«410712_j33741263077803_1_alg».proof.Proof.Body
import Idealize.ShloMosaic.Lib.Pipeline.Value

noncomputable section

namespace Cert.KernelIdeal.Region1

open Idealize.ShloMosaic Idealize.ShloMosaic.TcCoe Idealize.ShloMosaic.ValueIdx Idealize.SL.Sem
open Idealize.ShloMosaic.Pipeline (Dat)
open Cert.KernelIdeal Cert.KernelIdeal.Gen Cert.LibDense

variable (V : (c : Dev nD) → (b : Ref sig .tc) → Buf (Elt Ideal) ((c : Thread nD τ).loc b))

theorem hz : (![0, 0] : Fin 2 → Nat) = fun _ => 0 := funext fun a => by fin_cases a <;> rfl

/-- The edge features, the weights, the bias row and the gathered node projections as the call finds them. -/
abbrev earr (c : Dev nD) : Mat 300000 256 := V c main_arg1
abbrev warr (c : Dev nD) : Mat 256 256 := V c main_v1
abbrev barr (c : Dev nD) : Mat 1 256 := V c main_v11
abbrev garr (c : Dev nD) : Mat 300000 256 := V c main_v10

/-- The blocks the body loads at grid point t. -/
abbrev eblk (c : Dev nD) (t : Fin cfg1.N) : Mat 6000 256 := iblk1 V c 0 t
abbrev wblk (c : Dev nD) (t : Fin cfg1.N) : Mat 256 256 := iblk1 V c 1 t
abbrev bblk (c : Dev nD) (t : Fin cfg1.N) : Mat 1 256 := iblk1 V c 2 t
abbrev gblk (c : Dev nD) (t : Fin cfg1.N) : Mat 6000 256 := iblk1 V c 3 t

/-- The affine layer of the whole edge-feature array plus the gathered node projections, entry by entry. -/
def edgeOut (c : Dev nD) : Mat 300000 256 :=
  fun i => aff (earr V c) (warr V c) (fun k => barr V c (ix2 (0 : Fin 1) k)) i + garr V c i

/-- Which block each window is on at grid point t: the rows' windows on block t, the weights and bias on block 0. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- Row p of the edge block at point t is row 6000·t + p of the edge features. -/
theorem eblk_row (c : Dev nD) (t : Fin cfg1.N) (p : Fin 6000) (r : Fin 300000) (hr : r.val = t.val * 6000 + p.val) :
    RowEq (eblk V c t) (earr V c) p r := by
  intro j
  obtain ⟨e0, e1, -⟩ := idx_facts t
  show V c main_arg1 (((cfg1.win 0).blk t).view.emb (ix2 p j)) = V c main_arg1 (ix2 r j)
  congr 1
  funext a
  apply Fin.ext
  match a with
  | ⟨0, _⟩ => show win1_0.index t (0 : Fin 2) * 6000 + 1 * p.val = r.val; omega
  | ⟨1, _⟩ => show win1_0.index t (1 : Fin 2) * 256 + 1 * j.val = j.val; omega

/-- Row p of the gathered block at point t is row 6000·t + p of the gathered array. -/
theorem gblk_row (c : Dev nD) (t : Fin cfg1.N) (p : Fin 6000) (r : Fin 300000) (hr : r.val = t.val * 6000 + p.val) :
    RowEq (gblk V c t) (garr V c) p r := by
  intro j
  obtain ⟨-, -, -, -, -, -, e0, e1, -⟩ := idx_facts t
  show V c main_v10 (((cfg1.win 3).blk t).view.emb (ix2 p j)) = V c main_v10 (ix2 r j)
  congr 1
  funext a
  apply Fin.ext
  match a with
  | ⟨0, _⟩ => show win1_3.index t (0 : Fin 2) * 6000 + 1 * p.val = r.val; omega
  | ⟨1, _⟩ => show win1_3.index t (1 : Fin 2) * 256 + 1 * j.val = j.val; omega

/-- The weights' block is the whole weight array. -/
theorem wblk_eq (c : Dev nD) (t : Fin cfg1.N) : wblk V c t = warr V c := by
  funext y
  obtain ⟨-, -, e0, e1, -⟩ := idx_facts t
  show V c main_v1 (((cfg1.win 1).blk t).view.emb y) = V c main_v1 y
  congr 1
  funext a
  apply Fin.ext
  match a with
  | ⟨0, _⟩ => show win1_1.index t (0 : Fin 2) * 256 + 1 * (y 0).val = (y 0).val; omega
  | ⟨1, _⟩ => show win1_1.index t (1 : Fin 2) * 256 + 1 * (y 1).val = (y 1).val; omega

/-- The bias block is the whole bias row. -/
theorem bblk_eq (c : Dev nD) (t : Fin cfg1.N) : bblk V c t = barr V c := by
  funext y
  obtain ⟨-, -, -, -, e0, e1, -⟩ := idx_facts t
  show V c main_v11 (((cfg1.win 2).blk t).view.emb y) = V c main_v11 y
  congr 1
  funext a
  apply Fin.ext
  match a with
  | ⟨0, _⟩ => show win1_2.index t (0 : Fin 2) * 1 + 1 * (y 0).val = (y 0).val; omega
  | ⟨1, _⟩ => show win1_2.index t (1 : Fin 2) * 256 + 1 * (y 1).val = (y 1).val; omega

/-- What grid point t writes back is block t of the one function of the whole arrays. -/
theorem flushed_eq (c : Dev nD) (t : Fin cfg1.N) :
    (dat1 V c).flushed 4 t = ((cfg1.win 4).blk t).view.read (Elt Ideal) (edgeOut V c) := by
  show (cfg1.win 4).cut (grid1.coords t) ((dat1 V c).after 4 t) = _
  rw [after1_4]
  unfold out1_4
  rw [View.canon_unit_zero hz]
  simp only [View.ld_unit_zero (S := S6000x256) hz, View.ld_unit_zero (S := S256x256) hz, View.ld_unit_zero (S := S1x256) hz]
  rw [Body.pay1]
  obtain ⟨-, -, -, -, -, -, -, -, e0, e1⟩ := idx_facts t
  funext j
  obtain ⟨p, q, rfl⟩ : ∃ (p : Fin 6000) (q : Fin 256), j = ix2 p q := ⟨j 0, j 1, eq_ix2 j⟩
  show aff (eblk V c t) (wblk V c t) (fun k => bblk V c t (ix2 (0 : Fin 1) k)) (ix2 p q) + gblk V c t (ix2 p q)
    = edgeOut V c (((cfg1.win 4).blk t).view.emb (ix2 p q))
  rw [wblk_eq, bblk_eq]
  have hN : cfg1.N = 50 := N_1
  have ht : t.val < 50 := hN ▸ t.isLt
  have hb : t.val * 6000 + p.val < 300000 := by omega
  have he : ((cfg1.win 4).blk t).view.emb (ix2 p q)
      = ix2 (⟨t.val * 6000 + p.val, hb⟩ : Fin 300000) q := by
    funext a
    apply Fin.ext
    match a with
    | ⟨0, _⟩ => show win1_4.index t (0 : Fin 2) * 6000 + 1 * p.val = t.val * 6000 + p.val; omega
    | ⟨1, _⟩ => show win1_4.index t (1 : Fin 2) * 256 + 1 * q.val = q.val; omega
  rw [he]
  show _ = aff (earr V c) (warr V c) (fun k => barr V c (ix2 (0 : Fin 1) k)) (ix2 ⟨t.val * 6000 + p.val, hb⟩ q)
    + garr V c (ix2 ⟨t.val * 6000 + p.val, hb⟩ q)
  rw [(eblk_row V c t p ⟨t.val * 6000 + p.val, hb⟩ rfl).aff _ _ q, gblk_row V c t p ⟨t.val * 6000 + p.val, hb⟩ rfl q]

/-- An index of the result array is in point t's block iff its row is among the block's 6000 rows. -/
theorem mem_blk (t : Fin cfg1.N) (i : S300000x256.Idx) :
    i ∈ ((cfg1.win 4).blk t).view.set ↔ ∀ a : Fin 2, win1_4.index t a * S6000x256.size a ≤ (i a).val ∧ (i a).val < win1_4.index t a * S6000x256.size a + S6000x256.size a := by
  show i ∈ ((View.whole main_v12).slice (win1_4.rect t)).set ↔ _
  rw [View.set_slice_whole, Rect.mem_set_unit]
  exact Iff.rfl

/-- The fifty blocks tile the array: row r lies in block r / 6000. -/
theorem cover (i : S300000x256.Idx) :
    ∃ t : Fin cfg1.N, (cfg1.win 4).flush t = true ∧ i ∈ ((cfg1.win 4).blk t).view.set := by
  have hi0 : (i 0).val < 300000 := (i 0).isLt
  have hi1 : (i 1).val < 256 := (i 1).isLt
  have hN : cfg1.N = 50 := N_1
  refine ⟨⟨(i 0).val / 6000, by omega⟩, flush1_4 _, ?_⟩
  rw [mem_blk]
  obtain ⟨-, -, -, -, -, -, -, -, e0, e1⟩ := idx_facts ⟨(i 0).val / 6000, by omega⟩
  intro a
  match a with
  | ⟨0, _⟩ =>
    show win1_4.index _ (0 : Fin 2) * 6000 ≤ (i 0).val ∧ (i 0).val < win1_4.index _ (0 : Fin 2) * 6000 + 6000
    rw [e0]
    show (i 0).val / 6000 * 6000 ≤ (i 0).val ∧ (i 0).val < (i 0).val / 6000 * 6000 + 6000
    omega
  | ⟨1, _⟩ =>
    show win1_4.index _ (1 : Fin 2) * 256 ≤ (i 1).val ∧ (i 1).val < win1_4.index _ (1 : Fin 2) * 256 + 256
    rw [e1]
    omega

/-- THE RESULT ARRAY of the second call: the affine layer of the edge features plus the gathered array, as the call
    finds them. -/
theorem final (c : Dev nD) : (dat1 V c).arrAt 4 cfg1.N = edgeOut V c :=
  (dat1 V c).arrAt_eq_of_cover 4 (edgeOut V c) (fun t _ => flushed_eq V c t) (cover)

end Cert.KernelIdeal.Region1

end
-- ==== Proof.LibWrapTake.lean ====
/-
  Two facts about words, for reading an index range out of a printed predicate and into a printed range mask.

  numpy's wrap of a negative index: for a table of N rows an index x with −N ≤ x < N is sent to x + N when x < 0 and left
  alone otherwise, and the result lies in [0, N − 1]. On 32-bit words read as signed integers, for N up to 2³⁰, the sum
  does not wrap around, so the word computed by "select (x < 0) (x + N) x" has that signed value.
  An and-reduction of one-bit words that are all 1, from an initial value 1, is 1 at every result index.
-/
import Idealize.ShloMosaic.Lib.Affine
import Idealize.ShloMosaic.Lib.ValueIdx
import Idealize.ShloMosaic.Lib.ReduceAll
import Idealize.ShloMosaic.Lib.StableHlo.Predicate

namespace Cert.LibWrapTake

open Idealize.ShloMosaic

/-- The wrapped index lies in the table: from −N ≤ x < N (signed), the word "x + N if x < 0, else x" is in [0, N − 1]. -/
theorem wrap_range (N : Nat) (hN : N ≤ 2 ^ 30) (x : BitVec 32) (hlo : -(N : Int) ≤ x.toInt) (hhi : x.toInt < N) :
    0 ≤ (Scalar.select (IntOp.cmpi .slt x 0#32) (IntOp.addi x (BitVec.ofNat 32 N)) x).toInt
    ∧ (Scalar.select (IntOp.cmpi .slt x 0#32) (IntOp.addi x (BitVec.ofNat 32 N)) x).toInt ≤ (N : Int) - 1 := by
  have h0 : (0#32 : BitVec 32).toInt = 0 := by decide
  have hNi : (BitVec.ofNat 32 N).toInt = N := StableHlo.Predicate.toInt_ofNat_small N (by omega)
  have hN' : (N : Int) ≤ 2 ^ 30 := by exact_mod_cast hN
  by_cases hx : x.toInt < 0
  · have hc : IntOp.cmpi .slt x 0#32 = 1#1 := IntOp.cmpi_slt.2 (by rw [h0]; exact hx)
    rw [hc, ValueIdx.select_one]
    show 0 ≤ (x + BitVec.ofNat 32 N).toInt ∧ (x + BitVec.ofNat 32 N).toInt ≤ (N : Int) - 1
    rw [BitVec.toInt_add, hNi, Int.bmod_eq_of_le (by omega) (by omega)]
    omega
  · have hc : IntOp.cmpi .slt x 0#32 = 0#1 :=
      ValueIdx.eq_zero_of_ne_one (fun h => hx (by have := IntOp.cmpi_slt.1 h; rwa [h0] at this))
    rw [hc, ValueIdx.select_zero]
    omega

/-- A left fold by `and` over one-bit words that starts at 1 and meets only 1s ends at 1. -/
theorem foldl_andi_one {ι : Type} (f : ι → BitVec 1) :
    ∀ (l : List ι) (init : BitVec 1), init = 1#1 → (∀ n ∈ l, f n = 1#1) → l.foldl (fun r n => IntOp.andi r (f n)) init = 1#1
  | [], _, h, _ => h
  | a :: l, _, h, hl =>
    foldl_andi_one f l _ (IntOp.andi_eq_one.2 ⟨h, hl a List.mem_cons_self⟩) (fun n hn => hl n (List.mem_cons_of_mem _ hn))

/-- An and-reduction of an array of 1s from the initial value 1 is 1 everywhere. -/
theorem reduce_andi_one_of_all {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl]
  exact foldl_andi_one x _ _ (hinit _) (fun i _ => hx i)

end Cert.LibWrapTake
-- ==== Proof.Take.lean ====
/-
  jnp.take of rows of a 10000-row table at 300000 indices, as the kernel's program computes it, and when it is a plain gather.

  The indices are one row of the 2 × 300000 edge-index array. A negative index x is first wrapped to x + 10000; the
  wrapped indices, as a 300000 × 1 column, are the start indices of a row gather (which clamps each into [0, 9999]); a
  mask marks the rows whose wrapped index already lies in [0, 9999], and the rows outside the mask are filled with a NaN
  pattern instead of the gathered row. When every index lies in [−10000, 10000) every wrapped index lies in [0, 9999],
  the mask is all ones, no row is filled, and the take is the gather at the wrapped indices.
-/
import proofs.«410712_j33741263077803_1_alg».proof.Proof.Gen.KernelIdeal
import proofs.«410712_j33741263077803_1_alg».proof.Proof.LibWrapTake
import Idealize.ShloMosaic.Lib.ValueIdx

noncomputable section

namespace Cert.KernelIdeal.Take

open Idealize.ShloMosaic Cert.KernelIdeal Cert.KernelIdeal.Gen

variable {F : FTy → Type} [FloatOps F]

/-- Row 0 of the edge-index array (the source nodes), as a vector of 300000 indices. -/
def srcRow (ei : IVec S2x300000 32) : IVec S300000 32 :=
  shapeCast S300000 (extractStridedSlice S1x300000 ![0, 0] ei slices_S2x300000_S1x300000_0_0) shapeCasts_S1x300000_S300000

/-- Row 1 of the edge-index array (the destination nodes). -/
def dstRow (ei : IVec S2x300000 32) : IVec S300000 32 :=
  shapeCast S300000 (extractStridedSlice S1x300000 ![1, 0] ei slices_S2x300000_S1x300000_1_0) shapeCasts_S1x300000_S300000

/-- The indices with a negative one wrapped by the table's 10000 rows. -/
def wrapped (idx : IVec S300000 32) : IVec S300000 32 :=
  select (cmpi .slt idx (broadcastInDim S300000 ![] bcast_S_S300000 (constantI S_ 32 0#32)))
    (addi idx (broadcastInDim S300000 ![] bcast_S_S300000 (constantI S_ 32 10000#32))) idx

/-- The wrapped indices as a column of start indices. -/
def startCol (idx : IVec S300000 32) : IVec S300000x1 32 :=
  broadcastInDim S300000x1 ![0] bcast_S300000_S300000x1_0 (wrapped idx)

/-- The fill mask: 1 at the rows whose wrapped index lies in [0, 9999]. -/
def inRange (idx : IVec S300000 32) : IVec S300000 1 :=
  Host.reduce IntOp.andi
    (andi (cmpi .sge (startCol idx) (broadcastInDim S300000x1 ![] bcast_S_S300000x1 (constantI S_ 32 0#32)))
      (cmpi .sle (startCol idx) (broadcastInDim S300000x1 ![0, 1] bcast_S1x1_S300000x1_0_1
        (broadcastInDim S1x1 ![1] bcast_S1_S1x1_1 (constantI S1 32 9999#32)))))
    (constantI S_ 1 1#1) reducesTo_S300000x1_S300000_d1 h_S_

/-- The take: the gathered rows inside the mask, the NaN pattern outside it. -/
def take (tbl : FVec F S10000x256 .f32) (idx : IVec S300000 32) : FVec F S300000x256 .f32 :=
  select (broadcastInDim S300000x256 ![0] bcast_S300000_S300000x256_0 (inRange idx))
    (Host.gather gather_S10000x256_S300000x1_S300000x256_1_0_n_n_0_1_1256 tbl (startCol idx))
    (broadcastInDim S300000x256 ![] bcast_S_S300000x256 (constant S_ .f32 0x7FC00000#32))

/-- An index range that holds of every entry of the edge-index array holds of every entry of its two rows. -/
theorem srcRow_range (ei : IVec S2x300000 32) (P : BitVec 32 → Prop) (h : ∀ i, P (ei i)) (j : S300000.Idx) :
    P (srcRow ei j) := h _

theorem dstRow_range (ei : IVec S2x300000 32) (P : BitVec 32 → Prop) (h : ∀ i, P (ei i)) (j : S300000.Idx) :
    P (dstRow ei j) := h _

/-- Every wrapped index lies in [0, 9999] when every index lies in [−10000, 10000). -/
theorem wrapped_range (idx : IVec S300000 32) (hr : ∀ j, -10000 ≤ (idx j).toInt ∧ (idx j).toInt < 10000) (j : S300000.Idx) :
    0 ≤ (wrapped idx j).toInt ∧ (wrapped idx j).toInt ≤ 9999 := by
  have h := Cert.LibWrapTake.wrap_range 10000 (by decide) (idx j) (by exact_mod_cast (hr j).1) (by exact_mod_cast (hr j).2)
  have hw : wrapped idx j
      = Scalar.select (IntOp.cmpi .slt (idx j) 0#32) (IntOp.addi (idx j) (BitVec.ofNat 32 10000)) (idx j) := rfl
  rw [hw]
  exact ⟨h.1, by have := h.2; omega⟩

/-- Then the fill mask is 1 at every row. -/
theorem inRange_one (idx : IVec S300000 32) (hr : ∀ j, -10000 ≤ (idx j).toInt ∧ (idx j).toInt < 10000) (j : S300000.Idx) :
    inRange idx j = 1#1 := by
  unfold inRange
  refine Cert.LibWrapTake.reduce_andi_one_of_all _ _ _ _ (fun _ => rfl) (fun i => ?_) j
  have e0 : (0#32 : BitVec 32).toInt = 0 := by decide
  have e1 : (9999#32 : BitVec 32).toInt = 9999 := by decide
  obtain ⟨k, hk⟩ : ∃ k : S300000.Idx, startCol idx i = wrapped idx k := ⟨_, rfl⟩
  have hw := wrapped_range idx hr k
  show IntOp.andi (IntOp.cmpi .sge (startCol idx i) 0#32) (IntOp.cmpi .sle (startCol idx i) 9999#32) = 1#1
  rw [hk]
  exact IntOp.andi_eq_one.2 ⟨IntOp.cmpi_sge.2 (by rw [e0]; exact hw.1), IntOp.cmpi_sle.2 (by rw [e1]; exact hw.2)⟩

/-- So the take is the gather at the wrapped indices: no row is filled. -/
theorem take_eq_gather (tbl : FVec F S10000x256 .f32) (idx : IVec S300000 32)
    (hr : ∀ j, -10000 ≤ (idx j).toInt ∧ (idx j).toInt < 10000) :
    take tbl idx = Host.gather gather_S10000x256_S300000x1_S300000x256_1_0_n_n_0_1_1256 tbl (startCol idx) := by
  funext i
  obtain ⟨k, hk⟩ : ∃ k : S300000.Idx,
      broadcastInDim S300000x256 ![0] bcast_S300000_S300000x256_0 (inRange idx) i = inRange idx k := ⟨_, rfl⟩
  unfold take Idealize.ShloMosaic.select
  rw [hk, inRange_one idx hr k, ValueIdx.select_one]

end Cert.KernelIdeal.Take

end
-- ==== Proof.Linear.lean ====
/-
  A linear layer y = x · Wᵀ + b, two ways.

  With the weight array W stored [m, k] (one row per output coordinate) entry (a, c) of the layer is
  ∑ j, x(a, j) · W(c, j) + b(c). A program may compute it by contracting axis 1 of x with axis 1 of W directly, or by first
  transposing W to [k, m], laying the bias vector out as one row, and taking the affine layer x · Wᵀ + row. Reading the
  transpose and the one-row layout at an index shows the second is the first, entry by entry: the same sum over the
  contracted coordinate, no term moved.
-/
import proofs.«410712_j33741263077803_1_alg».proof.Proof.LibDense
import Idealize.ShloMosaic.Lib.ValueIdx
import Idealize.ShloMosaic.Lib.ValueLayout
import Idealize.ShloMosaic.Lib.Pipeline.Value

noncomputable section

open scoped BigOperators

namespace Cert.Linear

open Idealize.ShloMosaic Idealize.ShloMosaic.ValueIdx Cert.LibDense

variable {n k m : Nat}

/-- The linear layer: entry (a, c) is ∑ j, x(a, j) · w(c, j) + b(c). -/
def lin (x : Mat n k) (w : Mat m k) (b : (⟨1, ![m]⟩ : Shape).Idx → EReal) : Mat n m :=
  fun i => ∑ j : Fin k, x (ix2 (i 0) j) * w (ix2 (i 1) j) + b (ix1 (i 1))

theorem lin_apply (x : Mat n k) (w : Mat m k) (b : (⟨1, ![m]⟩ : Shape).Idx → EReal) (a : Fin n) (c : Fin m) :
    lin x w b (ix2 a c) = ∑ j : Fin k, x (ix2 a j) * w (ix2 c j) + b (ix1 c) := rfl

/-- The affine layer against the transposed weights, with the bias laid out as one row, is the linear layer. -/
theorem aff_transpose (x : Mat n k) (w : Mat m k) (b : (⟨1, ![m]⟩ : Shape).Idx → EReal)
    (ht : (⟨2, ![m, k]⟩ : Shape).Transposes [1, 0] ⟨2, ![k, m]⟩)
    (hc : (⟨1, ![m]⟩ : Shape).ShapeCasts ⟨2, ![1, m]⟩) :
    aff x (transpose ⟨2, ![k, m]⟩ [1, 0] w ht) (fun c => shapeCast ⟨2, ![1, m]⟩ b hc (ix2 (0 : Fin 1) c)) = lin x w b := by
  funext i
  obtain ⟨a, c, rfl⟩ : ∃ (a : Fin n) (c : Fin m), i = ix2 a c := ⟨i 0, i 1, eq_ix2 i⟩
  rw [aff_apply, lin_apply, shapeCast_a_1a_apply]
  congr 1
  refine Finset.sum_congr rfl fun j _ => ?_
  rw [transpose_ix2_apply]

end Cert.Linear

end
-- ==== Proof.Spec.lean ====
/-
  The result both programs compute, as one function of the seven argument arrays.

  Vx = x · Vs_wᵀ + Vs_b (a row per node) and Ue = e · Us_wᵀ + Us_b (a row per edge) are linear layers. For edge i with
  source s(i) and destination d(i) — rows 0 and 1 of the edge-index array, a negative index wrapped by the 10000 nodes,
  then clamped into the table by the gather — the result row is
      Ue(i) + (Vx(s(i)) + Vx(d(i))),
  entry by entry on the extended reals. The gather is kept as the one operation both programs apply to the same table and
  the same start indices; nothing about which row it selects is needed to compare them.
-/
import proofs.«410712_j33741263077803_1_alg».proof.Proof.Take
import proofs.«410712_j33741263077803_1_alg».proof.Proof.Linear

noncomputable section

namespace Cert.Spec

open Idealize.ShloMosaic Cert.KernelIdeal Cert.KernelIdeal.Gen Cert.KernelIdeal.Take Cert.LibDense Cert.Linear

/-- The node projections gathered at one row of wrapped indices. -/
def gathered (vx : Mat 10000 256) (idx : IVec S300000 32) : Mat 300000 256 :=
  Host.gather gather_S10000x256_S300000x1_S300000x256_1_0_n_n_0_1_1256 vx (startCol idx)

/-- The new edge features: Ue + (Vx[src] + Vx[dst]). -/
def edgeFeatures (x : Mat 10000 256) (e : Mat 300000 256) (ei : IVec S2x300000 32) (usw : Mat 256 256)
    (usb : (⟨1, ![256]⟩ : Shape).Idx → EReal) (vsw : Mat 256 256) (vsb : (⟨1, ![256]⟩ : Shape).Idx → EReal) : Mat 300000 256 :=
  fun i => lin e usw usb i + (gathered (lin x vsw vsb) (srcRow ei) i + gathered (lin x vsw vsb) (dstRow ei) i)

end Cert.Spec

end
-- ==== Proof.KernelValue.lean ====
/-
  What the kernel's program leaves in its result buffer, as the one function of the argument arrays.

  The buffer contents at each boundary between host stretches and pallas_calls are a fold from the launch memory. Read
  back through it: the first call finds the node features, the transposed Vs weights and the Vs bias laid out as a row, so
  its result array is the node projection Vx; the host stretch between the calls takes rows of that array at the two rows
  of the edge-index array (wrap, range mask, gather, fill) and adds the two takes; the second call finds the edge
  features, the transposed Us weights, the Us bias row and that sum, so its result array is Ue plus the sum. Under the
  index range both takes are plain gathers, and a layer against transposed weights with a one-row bias is the linear
  layer, which gives the function of the specification.
-/
import proofs.«410712_j33741263077803_1_alg».proof.Proof.Gen.KernelIdeal.Frame
import proofs.«410712_j33741263077803_1_alg».proof.Proof.Region0
import proofs.«410712_j33741263077803_1_alg».proof.Proof.Region1
import proofs.«410712_j33741263077803_1_alg».proof.Proof.Spec
import Idealize.ShloMosaic.Lib.StableHlo.Run

noncomputable section

namespace Cert.KernelIdeal.Result

open Idealize.ShloMosaic Idealize.ShloMosaic.TcCoe Idealize.SL.Sem Idealize.ShloMosaic.StableHlo
open Cert.KernelIdeal Cert.KernelIdeal.Gen Cert.LibDense Cert.Linear

variable (m : (ℓ : Loc nD τ sig) → Buf (Elt Ideal) ℓ) (ρ : Dev nD → PrngReg)

/-! ## What the first call finds -/

theorem V1_arg0 (c : Dev nD) : Region0.xarr (V1 m ρ) c = m ((c : Thread nD τ).loc main_arg0) := by
  show StableHlo.after hostOps0 (W0 m ρ c) (Proc.devRef .tc main_arg0) = _
  after_results_simp <;> rfl

theorem V1_v0 (c : Dev nD) : Region0.warr (V1 m ρ) c
    = transpose S256x256 [1, 0] (m ((c : Thread nD τ).loc main_arg5)) transposes_S256x256_S256x256_1_0 := by
  show StableHlo.after hostOps0 (W0 m ρ c) (Proc.devRef .tc main_v0) = _
  after_results_simp <;> rfl

theorem V1_v2 (c : Dev nD) : Region0.barr (V1 m ρ) c
    = shapeCast S1x256 (m ((c : Thread nD τ).loc main_arg6)) shapeCasts_S256_S1x256 := by
  show StableHlo.after hostOps0 (W0 m ρ c) (Proc.devRef .tc main_v2) = _
  after_results_simp <;> rfl

/-! ## What the first call leaves, and what no call or host operation touches -/

theorem W2_v3 (c : Dev nD) : W2 m ρ c (Proc.devRef .tc main_v3) = Region0.nodeProj (V1 m ρ) c :=
  (W2_arr m ρ c 3).trans (Region0.final (V1 m ρ) c)

theorem W2_arg (c : Dev nD) (b : Ref sig .tc) (hb : ∀ w, Pipeline.arrRef spec0 w ≠ b) :
    W2 m ρ c (Proc.devRef .tc b) = StableHlo.after hostOps0 (W0 m ρ c) (Proc.devRef .tc b) := W2_of_ne m ρ c b hb

theorem W2_arg1 (c : Dev nD) : W2 m ρ c (Proc.devRef .tc main_arg1) = m ((c : Thread nD τ).loc main_arg1) := by
  rw [W2_arg m ρ c main_arg1 (by decide)]
  after_results_simp <;> rfl

theorem W2_arg2 (c : Dev nD) : W2 m ρ c (Proc.devRef .tc main_arg2) = m ((c : Thread nD τ).loc main_arg2) := by
  rw [W2_arg m ρ c main_arg2 (by decide)]
  after_results_simp <;> rfl

theorem W2_arg4 (c : Dev nD) : W2 m ρ c (Proc.devRef .tc main_arg4) = m ((c : Thread nD τ).loc main_arg4) := by
  rw [W2_arg m ρ c main_arg4 (by decide)]
  after_results_simp <;> rfl

theorem W2_v1 (c : Dev nD) : W2 m ρ c (Proc.devRef .tc main_v1)
    = transpose S256x256 [1, 0] (m ((c : Thread nD τ).loc main_arg3)) transposes_S256x256_S256x256_1_0 := by
  rw [W2_arg m ρ c main_v1 (by decide)]
  after_results_simp <;> rfl

/-! ## What the second call finds -/

theorem V6_arg1 (c : Dev nD) : Region1.earr (V6 m ρ) c = m ((c : Thread nD τ).loc main_arg1) := by
  show StableHlo.after hostOps1_3 (W5 m ρ c) (Proc.devRef .tc main_arg1) = _
  after_results_simp <;> exact W2_arg1 m ρ c

theorem V6_v1 (c : Dev nD) : Region1.warr (V6 m ρ) c
    = transpose S256x256 [1, 0] (m ((c : Thread nD τ).loc main_arg3)) transposes_S256x256_S256x256_1_0 := by
  show StableHlo.after hostOps1_3 (W5 m ρ c) (Proc.devRef .tc main_v1) = _
  after_results_simp <;> exact W2_v1 m ρ c

theorem V6_v11 (c : Dev nD) : Region1.barr (V6 m ρ) c
    = shapeCast S1x256 (m ((c : Thread nD τ).loc main_arg4)) shapeCasts_S256_S1x256 := by
  show StableHlo.after hostOps1_3 (W5 m ρ c) (Proc.devRef .tc main_v11) = _
  after_results_simp
  exact congrArg (fun v => shapeCast S1x256 v shapeCasts_S256_S1x256) (W2_arg4 m ρ c)

set_option maxRecDepth 400000 in
/-- The sum of the two takes of the first call's result array at the two rows of the edge-index array. -/
theorem V6_v10 (c : Dev nD) : Region1.garr (V6 m ρ) c
    = addf (F := Ideal) (Take.take (F := Ideal) (W2 m ρ c (Proc.devRef .tc main_v3)) (Take.srcRow (W2 m ρ c (Proc.devRef .tc main_arg2))))
        (Take.take (F := Ideal) (W2 m ρ c (Proc.devRef .tc main_v3)) (Take.dstRow (W2 m ρ c (Proc.devRef .tc main_arg2)))) := by
  show StableHlo.after hostOps1_3 (W5 m ρ c) (Proc.devRef .tc main_v10) = _
  after_results_simp
  simp only [TRef.toBuf, TRef.ofBuf, cast_eq]
  unfold Take.take Take.inRange Take.startCol Take.wrapped Take.srcRow Take.dstRow
  rfl

/-! ## The result buffer -/

/-- THE KERNEL'S RESULT: under the index range, the function of the specification of the launch contents of the arguments. -/
theorem result (c : Dev nD)
    (hr : ∀ i, -10000 ≤ ((m ((c : Thread nD τ).loc main_arg2) : IVec S2x300000 32) i).toInt
      ∧ ((m ((c : Thread nD τ).loc main_arg2) : IVec S2x300000 32) i).toInt < 10000) :
    W7 m ρ c (Proc.devRef .tc main_v12)
      = Spec.edgeFeatures (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) := by
  refine (W7_arr m ρ c 4).trans ?_
  rw [Region1.final]
  unfold Region1.edgeOut
  rw [V6_arg1 m ρ c, V6_v1 m ρ c, V6_v11 m ρ c, V6_v10 m ρ c, W2_v3 m ρ c, W2_arg2 m ρ c]
  unfold Region0.nodeProj
  rw [V1_arg0 m ρ c, V1_v0 m ρ c, V1_v2 m ρ c]
  rw [Take.take_eq_gather _ _ (Take.srcRow_range _ (fun w => -10000 ≤ w.toInt ∧ w.toInt < 10000) hr),
    Take.take_eq_gather _ _ (Take.dstRow_range _ (fun w => -10000 ≤ w.toInt ∧ w.toInt < 10000) hr)]
  rw [aff_transpose, aff_transpose]
  rfl

end Cert.KernelIdeal.Result

end
-- ==== Proof.RefValue.lean ====
/-
  The reference's result is the function of the specification.

  The reference contracts axis 1 of the features with axis 1 of the weights and adds the bias broadcast down the rows:
  entry (a, c) of each of its two layers is ∑ j, x(a, j) · W(c, j) + b(c), the linear layer. It wraps each row of the
  edge-index array and gathers rows of Vx at the wrapped indices with the same gather the kernel's program uses, and adds
      (Ue + Vx[src]) + Vx[dst].
  Addition of extended reals is associative (also at the infinities), so this is Ue + (Vx[src] + Vx[dst]).
-/
import proofs.«410712_j33741263077803_1_alg».proof.Proof.Gen.ReferenceIdeal.Read
import proofs.«410712_j33741263077803_1_alg».proof.Proof.Spec

noncomputable section

namespace Cert.ReferenceIdeal.RefValue

open Idealize.ShloMosaic Idealize.ShloMosaic.ValueIdx
open Cert.ReferenceIdeal Cert.ReferenceIdeal.Gen Cert.ReferenceIdeal.Read Cert.LibDense Cert.Linear

/-- The edge projection is the linear layer of the edge features. -/
theorem ue_eq (x1 : (⟨S300000x256, .f32⟩ : BufTy).Contents (Elt Ideal)) (x3 : (⟨S256x256, .f32⟩ : BufTy).Contents (Elt Ideal))
    (x4 : (⟨S256, .f32⟩ : BufTy).Contents (Elt Ideal)) :
    val_main_v3 (F := Ideal) x1 x3 x4 = lin (n := 300000) (k := 256) (m := 256) x1 x3 x4 := by
  funext i
  obtain ⟨a, c, rfl⟩ : ∃ (a : Fin 300000) (c : Fin 256), i = ix2 a c := ⟨i 0, i 1, eq_ix2 i⟩
  rw [val_main_v3_apply, val_main_v0_apply, val_main_v2_apply, val_main_v1_apply, lin_apply]
  have el : ∀ k, lidx_main_v0 (ix2 a c) k = ix2 a k := fun k => funext fun d => Fin.ext (by
    match d with
    | ⟨0, _⟩ => rfl
    | ⟨1, _⟩ => rfl)
  have er : ∀ k, ridx_main_v0 (ix2 a c) k = ix2 c k := fun k => funext fun d => Fin.ext (by
    match d with
    | ⟨0, _⟩ => rfl
    | ⟨1, _⟩ => rfl)
  have eb : idx_main_v1 (idx_main_v2 (ix2 a c)) = ix1 c := funext fun d => Fin.ext (by
    match d with
    | ⟨0, _⟩ => rfl)
  simp only [el, er, eb]
  rfl

/-- The node projection is the linear layer of the node features. -/
theorem vx_eq (x0 : (⟨S10000x256, .f32⟩ : BufTy).Contents (Elt Ideal)) (x5 : (⟨S256x256, .f32⟩ : BufTy).Contents (Elt Ideal))
    (x6 : (⟨S256, .f32⟩ : BufTy).Contents (Elt Ideal)) :
    val_main_v7 (F := Ideal) x0 x5 x6 = lin (n := 10000) (k := 256) (m := 256) x0 x5 x6 := by
  funext i
  obtain ⟨a, c, rfl⟩ : ∃ (a : Fin 10000) (c : Fin 256), i = ix2 a c := ⟨i 0, i 1, eq_ix2 i⟩
  rw [val_main_v7_apply, val_main_v4_apply, val_main_v6_apply, val_main_v5_apply, lin_apply]
  have el : ∀ k, lidx_main_v4 (ix2 a c) k = ix2 a k := fun k => funext fun d => Fin.ext (by
    match d with
    | ⟨0, _⟩ => rfl
    | ⟨1, _⟩ => rfl)
  have er : ∀ k, ridx_main_v4 (ix2 a c) k = ix2 c k := fun k => funext fun d => Fin.ext (by
    match d with
    | ⟨0, _⟩ => rfl
    | ⟨1, _⟩ => rfl)
  have eb : idx_main_v5 (idx_main_v6 (ix2 a c)) = ix1 c := funext fun d => Fin.ext (by
    match d with
    | ⟨0, _⟩ => rfl)
  simp only [el, er, eb]
  rfl

/-- The gather at the wrapped source indices is the specification's. -/
theorem src_eq (vx : (⟨S10000x256, .f32⟩ : BufTy).Contents (Elt Ideal)) (x2 : (⟨S2x300000, .i32⟩ : BufTy).Contents (Elt Ideal)) :
    Host.gather gather_S10000x256_S300000x1_S300000x256_1_0_n_n_0_1_1256 vx (val_main_v17 (F := Ideal) x2)
      = Spec.gathered vx (Cert.KernelIdeal.Take.srcRow x2) := rfl

/-- The gather at the wrapped destination indices is the specification's. -/
theorem dst_eq (vx : (⟨S10000x256, .f32⟩ : BufTy).Contents (Elt Ideal)) (x2 : (⟨S2x300000, .i32⟩ : BufTy).Contents (Elt Ideal)) :
    Host.gather gather_S10000x256_S300000x1_S300000x256_1_0_n_n_0_1_1256 vx (val_main_v25 (F := Ideal) x2)
      = Spec.gathered vx (Cert.KernelIdeal.Take.dstRow x2) := rfl

/-- THE REFERENCE'S RESULT is the function of the specification. -/
theorem result_eq (x0 : (⟨S10000x256, .f32⟩ : BufTy).Contents (Elt Ideal)) (x1 : (⟨S300000x256, .f32⟩ : BufTy).Contents (Elt Ideal))
    (x2 : (⟨S2x300000, .i32⟩ : BufTy).Contents (Elt Ideal)) (x3 : (⟨S256x256, .f32⟩ : BufTy).Contents (Elt Ideal))
    (x4 : (⟨S256, .f32⟩ : BufTy).Contents (Elt Ideal)) (x5 : (⟨S256x256, .f32⟩ : BufTy).Contents (Elt Ideal))
    (x6 : (⟨S256, .f32⟩ : BufTy).Contents (Elt Ideal)) :
    val_main_v27 (F := Ideal) x0 x1 x2 x3 x4 x5 x6 = Spec.edgeFeatures x0 x1 x2 x3 x4 x5 x6 := by
  unfold val_main_v27 val_main_v19 val_main_v18 val_main_v26
  rw [ue_eq, vx_eq, src_eq, dst_eq]
  funext i
  show (lin x1 x3 x4 i + Spec.gathered (lin x0 x5 x6) (Cert.KernelIdeal.Take.srcRow x2) i)
      + Spec.gathered (lin x0 x5 x6) (Cert.KernelIdeal.Take.dstRow x2) i = _
  rw [add_assoc]
  rfl

end Cert.ReferenceIdeal.RefValue

end
-- ==== Proof.lean ====
/-
  Edge features of a graph network: e_new = (e · Us_wᵀ + Us_b) + Vx[src] + Vx[dst] with Vx = x · Vs_wᵀ + Vs_b, the kernel's
  program (two row-blocked pallas_calls with jnp.take between them) against the plain jnp reference, on the extended reals.

  Each pallas_call computes a linear layer a block of rows at a time against the transposed weights; an entry of a layer
  depends on its own row only, so the blocks assemble to the layer of the whole array (the first call's blocks tile the
  10000 nodes, the second's the 300000 edges). Between the calls the kernel's program takes rows of Vx at the source and at
  the destination indices in jnp.take's fill mode: it wraps a negative index by 10000, gathers (the gather clamps), and
  overwrites with a NaN pattern every row whose wrapped index is outside [0, 9999]. The reference wraps and gathers the same
  way and fills nothing. Under the precondition every edge index lies in [−10000, 10000), so every wrapped index lies in
  [0, 9999], nothing is filled, and both programs gather the same rows of the same table. What remains is the order of the
  two additions, (Ue + Vx[src]) + Vx[dst] in the reference and Ue + (Vx[src] + Vx[dst]) in the kernel's program: addition of
  extended reals is associative. No finiteness of the float inputs is used.
-/
import proofs.«410712_j33741263077803_1_alg».proof.Defs
import proofs.«410712_j33741263077803_1_alg».proof.Proof.Gen.Kernel
import proofs.«410712_j33741263077803_1_alg».proof.Proof.Gen.Kernel.Skeleton
import proofs.«410712_j33741263077803_1_alg».proof.Proof.Gen.Kernel.Launch
import proofs.«410712_j33741263077803_1_alg».proof.Proof.Gen.Kernel.Points
import proofs.«410712_j33741263077803_1_alg».proof.Proof.Gen.Kernel.Frame
import proofs.«410712_j33741263077803_1_alg».proof.Proof.Gen.KernelIdeal
import proofs.«410712_j33741263077803_1_alg».proof.Proof.Gen.KernelIdeal.Skeleton
import proofs.«410712_j33741263077803_1_alg».proof.Proof.Gen.KernelIdeal.Launch
import proofs.«410712_j33741263077803_1_alg».proof.Proof.Gen.KernelIdeal.Points
import proofs.«410712_j33741263077803_1_alg».proof.Proof.Gen.KernelIdeal.Frame
import proofs.«410712_j33741263077803_1_alg».proof.Proof.Gen.ReferenceIdeal
import proofs.«410712_j33741263077803_1_alg».proof.Proof.Gen.ReferenceIdeal.Run
import proofs.«410712_j33741263077803_1_alg».proof.Proof.Gen.ReferenceIdeal.Read
import proofs.«410712_j33741263077803_1_alg».proof.Proof.Gen.Pre_finite_inputs
import proofs.«410712_j33741263077803_1_alg».proof.Proof.IndexRange
import proofs.«410712_j33741263077803_1_alg».proof.Proof.RunNamed
import proofs.«410712_j33741263077803_1_alg».proof.Proof.KernelValue
import proofs.«410712_j33741263077803_1_alg».proof.Proof.RefValue
import Idealize.ShloMosaic.Adequacy
import Idealize.ShloMosaic.Init

noncomputable section

namespace Cert.Proof

open Idealize.ShloMosaic Idealize.SL.Sem

/-- The word-level kernel's program runs and leaves its arguments unchanged. -/
theorem frame_k : Cert.frame_Kernel := fun m ρ _ => Cert.Kernel.Gen.frame m ρ

/-- So does the idealized kernel's program. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the new edge features Ue + (Vx[src] + Vx[dst]) of the arguments. -/
theorem algebraic : Cert.algebraic_KernelIdeal_ReferenceIdeal := by
  intro m ρ m' ρ' hpre hagree
  refine ⟨fun c => Cert.Spec.edgeFeatures (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (m ((c.tc : Thread Cert.KernelIdeal.nD Cert.KernelIdeal.τ).loc Cert.KernelIdeal.main_arg3))
    (m ((c.tc : Thread Cert.KernelIdeal.nD Cert.KernelIdeal.τ).loc Cert.KernelIdeal.main_arg4)) (m ((c.tc : Thread Cert.KernelIdeal.nD Cert.KernelIdeal.τ).loc Cert.KernelIdeal.main_arg5))
    (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.Result.result m ρ c
        (Cert.IndexRange.range_of_pre (F := Ideal) _ _ _ _ _ _ _ (hpre c))), (h c).2⟩)
      (Cert.KernelIdeal.RunNamed.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6⟩ := hagree c
    rw [Cert.ReferenceIdeal.Read.val_main_v27_eq, Cert.ReferenceIdeal.RefValue.result_eq, h0, h1, h2, h3, h4, h5, h6]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
